-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x128x512 : Shape := ⟨3, ![32, 128, 512]⟩
abbrev S32x128x128 : Shape := ⟨3, ![32, 128, 128]⟩
abbrev S2x512x512 : Shape := ⟨3, ![2, 512, 512]⟩
abbrev S16x512 : Shape := ⟨2, ![16, 512]⟩
abbrev S_ : Shape := ⟨0, ![]⟩

class Facts : Prop where
  bcast_S_S32x128x512 : S_.BroadcastsInDim S32x128x512 (![] : Fin 0 → Fin S32x128x512.rank)
  reducesTo_S32x128x512_S_d0_1_2 : S32x128x512.ReducesTo [0, 1, 2] S_
  h_S_ : 0 < S_.numel
  bcast_S_S2x512x512 : S_.BroadcastsInDim S2x512x512 (![] : Fin 0 → Fin S2x512x512.rank)
  reducesTo_S2x512x512_S_d0_1_2 : S2x512x512.ReducesTo [0, 1, 2] S_
  bcast_S_S16x512 : S_.BroadcastsInDim S16x512 (![] : Fin 0 → Fin S16x512.rank)
  reducesTo_S16x512_S_d0_1 : S16x512.ReducesTo [0, 1] S_
  bcast_S_S32x128x128 : S_.BroadcastsInDim S32x128x128 (![] : Fin 0 → Fin S32x128x128.rank)
  reducesTo_S32x128x128_S_d0_1_2 : S32x128x128.ReducesTo [0, 1, 2] S_

variable [Facts]

def fn_part1 {F : FTy → Type} [FloatOps F] (main_arg1 : IVec S32x128x128 32) (main_v13 : IVec S_ 1) (main_v15 : IVec S32x128x128 1) (main_c_5 : IVec S_ 1) : IVec S_ 1 :=
  let main_v16 : IVec S_ 1 := (fun x v => Host.reduce IntOp.andi x v reducesTo_S32x128x128_S_d0_1_2 h_S_) main_v15 main_c_5
  let main_v17 : IVec S_ 1 := andi main_v13 main_v16
  let main_c_6 : IVec S_ 32 := constantI S_ 32 16#32
  let main_v18 : IVec S32x128x128 32 := broadcastInDim S32x128x128 ![] bcast_S_S32x128x128 main_c_6
  let main_v19 : IVec S32x128x128 1 := cmpi .slt main_arg1 main_v18
  let main_c_7 : IVec S_ 1 := constantI S_ 1 1#1
  let main_v20 : IVec S_ 1 := (fun x v => Host.reduce IntOp.andi x v reducesTo_S32x128x128_S_d0_1_2 h_S_) main_v19 main_c_7
  let main_v21 : IVec S_ 1 := andi main_v17 main_v20
  main_v21

def fn {F : FTy → Type} [FloatOps F] (main_arg0 : FVec F S32x128x512 .f32) (main_arg1 : IVec S32x128x128 32) (main_arg2 : FVec F S2x512x512 .f32) (main_arg3 : FVec F S16x512 .f32) : IVec S_ 1 :=
  let main_v0 : FVec F S32x128x512 .f32 := Host.absf main_arg0
  let main_cst : FVec F S_ .f32 := constant S_ .f32 0x7F800000#32
  let main_v1 : FVec F S32x128x512 .f32 := broadcastInDim S32x128x512 ![] bcast_S_S32x128x512 main_cst
  let main_v2 : IVec S32x128x512 1 := cmpf .olt main_v0 main_v1
  let main_c : IVec S_ 1 := constantI S_ 1 1#1
  let main_v3 : IVec S_ 1 := (fun x v => Host.reduce IntOp.andi x v reducesTo_S32x128x512_S_d0_1_2 h_S_) main_v2 main_c
  let main_v4 : FVec F S2x512x512 .f32 := Host.absf main_arg2
  let main_cst_0 : FVec F S_ .f32 := constant S_ .f32 0x7F800000#32
  let main_v5 : FVec F S2x512x512 .f32 := broadcastInDim S2x512x512 ![] bcast_S_S2x512x512 main_cst_0
  let main_v6 : IVec S2x512x512 1 := cmpf .olt main_v4 main_v5
  let main_c_1 : IVec S_ 1 := constantI S_ 1 1#1
  let main_v7 : IVec S_ 1 := (fun x v => Host.reduce IntOp.andi x v reducesTo_S2x512x512_S_d0_1_2 h_S_) main_v6 main_c_1
  let main_v8 : IVec S_ 1 := andi main_v3 main_v7
  let main_v9 : FVec F S16x512 .f32 := Host.absf main_arg3
  let main_cst_2 : FVec F S_ .f32 := constant S_ .f32 0x7F800000#32
  let main_v10 : FVec F S16x512 .f32 := broadcastInDim S16x512 ![] bcast_S_S16x512 main_cst_2
  let main_v11 : IVec S16x512 1 := cmpf .olt main_v9 main_v10
  let main_c_3 : IVec S_ 1 := constantI S_ 1 1#1
  let main_v12 : IVec S_ 1 := (fun x v => Host.reduce IntOp.andi x v reducesTo_S16x512_S_d0_1 h_S_) main_v11 main_c_3
  let main_v13 : IVec S_ 1 := andi main_v8 main_v12
  let main_c_4 : IVec S_ 32 := constantI S_ 32 0#32
  let main_v14 : IVec S32x128x128 32 := broadcastInDim S32x128x128 ![] bcast_S_S32x128x128 main_c_4
  let main_v15 : IVec S32x128x128 1 := cmpi .sge main_arg1 main_v14
  let main_c_5 : IVec S_ 1 := constantI S_ 1 1#1
  fn_part1 (F := F) main_arg1 main_v13 main_v15 main_c_5
-- ==== Kernel.lean ====
abbrev S32x128x512 : Shape := ⟨3, ![32, 128, 512]⟩
abbrev S32x128x128 : Shape := ⟨3, ![32, 128, 128]⟩
abbrev S2x512x512 : Shape := ⟨3, ![2, 512, 512]⟩
abbrev S16x512 : Shape := ⟨2, ![16, 512]⟩
abbrev S_ : Shape := ⟨0, ![]⟩
abbrev S512x512 : Shape := ⟨2, ![512, 512]⟩
abbrev S16 : Shape := ⟨1, ![16]⟩
abbrev S16x128 : Shape := ⟨2, ![16, 128]⟩
abbrev S2048 : Shape := ⟨1, ![2048]⟩
abbrev S1x2048 : Shape := ⟨2, ![1, 2048]⟩
abbrev S2048x1 : Shape := ⟨2, ![2048, 1]⟩
abbrev S1x16 : Shape := ⟨2, ![1, 16]⟩
abbrev S2048x16 : Shape := ⟨2, ![2048, 16]⟩
abbrev S4x128x512 : Shape := ⟨3, ![4, 128, 512]⟩
abbrev S4x128x128 : Shape := ⟨3, ![4, 128, 128]⟩
abbrev S512x128 : Shape := ⟨2, ![512, 128]⟩
abbrev S512x2048 : Shape := ⟨2, ![512, 2048]⟩
abbrev S512x16 : Shape := ⟨2, ![512, 16]⟩

abbrev nBuf : Space → Nat
  | .hbm => 22
  | .vmem => 10
  | .smem => 0
  | _ => 0

abbrev bufTy : (tb : Table) → Fin (tcTables nBuf tb) → BufTy
  | .hbm, ⟨0, _⟩ => ⟨S32x128x512, .f32⟩
  | .hbm, ⟨1, _⟩ => ⟨S32x128x128, .i32⟩
  | .hbm, ⟨2, _⟩ => ⟨S2x512x512, .f32⟩
  | .hbm, ⟨3, _⟩ => ⟨S16x512, .f32⟩
  | .hbm, ⟨4, _⟩ => ⟨S_, .f32⟩
  | .hbm, ⟨5, _⟩ => ⟨S512x512, .f32⟩
  | .hbm, ⟨6, _⟩ => ⟨S512x512, .f32⟩
  | .hbm, ⟨7, _⟩ => ⟨S512x512, .bf16⟩
  | .hbm, ⟨8, _⟩ => ⟨S16, .i32⟩
  | .hbm, ⟨9, _⟩ => ⟨S16x128, .i32⟩
  | .hbm, ⟨10, _⟩ => ⟨S2048, .i32⟩
  | .hbm, ⟨11, _⟩ => ⟨S2048, .bf16⟩
  | .hbm, ⟨12, _⟩ => ⟨S1x2048, .bf16⟩
  | .hbm, ⟨13, _⟩ => ⟨S2048x1, .i32⟩
  | .hbm, ⟨14, _⟩ => ⟨S16, .i32⟩
  | .hbm, ⟨15, _⟩ => ⟨S1x16, .i32⟩
  | .hbm, ⟨16, _⟩ => ⟨S2048x16, .i32⟩
  | .hbm, ⟨17, _⟩ => ⟨S2048x16, .i32⟩
  | .hbm, ⟨18, _⟩ => ⟨S2048x16, .i1⟩
  | .hbm, ⟨19, _⟩ => ⟨S2048x16, .bf16⟩
  | .hbm, ⟨20, _⟩ => ⟨S16x512, .bf16⟩
  | .hbm, ⟨21, _⟩ => ⟨S32x128x512, .f32⟩
  | .local _ .vmem, ⟨0, _⟩ => ⟨S4x128x512, .f32⟩
  | .local _ .vmem, ⟨1, _⟩ => ⟨S4x128x512, .f32⟩
  | .local _ .vmem, ⟨2, _⟩ => ⟨S4x128x128, .i32⟩
  | .local _ .vmem, ⟨3, _⟩ => ⟨S4x128x128, .i32⟩
  | .local _ .vmem, ⟨4, _⟩ => ⟨S512x512, .bf16⟩
  | .local _ .vmem, ⟨5, _⟩ => ⟨S2048x16, .bf16⟩
  | .local _ .vmem, ⟨6, _⟩ => ⟨S16x512, .bf16⟩
  | .local _ .vmem, ⟨7, _⟩ => ⟨S1x2048, .bf16⟩
  | .local _ .vmem, ⟨8, _⟩ => ⟨S4x128x512, .f32⟩
  | .local _ .vmem, ⟨9, _⟩ => ⟨S4x128x512, .f32⟩
  | _, _ => ⟨S32x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x16 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4x128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  reducesTo_S2x512x512_S512x512_d0 : S2x512x512.ReducesTo [0] S512x512
  h_S_ : 0 < S_.numel
  transposes_S512x512_S512x512_1_0 : S512x512.Transposes [1, 0] S512x512
  bitsLt_bf16_f32 : FTy.bits .bf16 < FTy.bits .f32
  bcast_S16_S16x128_0 : S16.BroadcastsInDim S16x128 (![0] : Fin 1 → Fin S16x128.rank)
  shapeCasts_S16x128_S2048 : S16x128.ShapeCasts S2048
  shapeCasts_S2048_S1x2048 : S2048.ShapeCasts S1x2048
  bcast_S2048_S2048x1_0 : S2048.BroadcastsInDim S2048x1 (![0] : Fin 1 → Fin S2048x1.rank)
  bcast_S16_S1x16_1 : S16.BroadcastsInDim S1x16 (![1] : Fin 1 → Fin S1x16.rank)
  bcast_S2048x1_S2048x16_0_1 : S2048x1.BroadcastsInDim S2048x16 (![0, 1] : Fin 2 → Fin S2048x16.rank)
  bcast_S1x16_S2048x16_0_1 : S1x16.BroadcastsInDim S2048x16 (![0, 1] : Fin 2 → Fin S2048x16.rank)
  inb_S4x128x512_S4x128x512_0_0_0 : ∀ a, (![0, 0, 0] : Fin 3 → Nat) a + S4x128x512.size a ≤ S4x128x512.size a
  h_S4x128x512 : 0 < S4x128x512.numel
  shapeCasts_S4x128x512_S512x512 : S4x128x512.ShapeCasts S512x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  shapeCasts_S512x512_S4x128x512 : S512x512.ShapeCasts S4x128x512
  inb_S4x128x128_S4x128x128_0_0_0 : ∀ a, (![0, 0, 0] : Fin 3 → Nat) a + S4x128x128.size a ≤ S4x128x128.size a
  h_S4x128x128 : 0 < S4x128x128.numel
  shapeCasts_S4x128x128_S512x128 : S4x128x128.ShapeCasts S512x128
  concatenates_S512x128_S512x128_S512x128_S512x128_S512x128_S512x128_S512x128_S512x128_S512x128_S512x128_S512x128_S512x128_S512x128_S512x128_S512x128_S512x128_S512x2048_d1 : Shape.Concatenates [S512x128, S512x128, S512x128, S512x128, S512x128, S512x128, S512x128, S512x128, S512x128, S512x128, S512x128, S512x128, S512x128, S512x128, S512x128, S512x128] S512x2048 1
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  natLt_1_32 : 1 < 32
  inb_S2048x16_S2048x16_0_0 : ∀ a, (![0, 0] : Fin 2 → Nat) a + S2048x16.size a ≤ S2048x16.size a
  h_S2048x16 : 0 < S2048x16.numel
  shapeCasts_S2048x16_S2048x16 : S2048x16.ShapeCasts S2048x16
  inb_S16x512_S16x512_0_0 : ∀ a, (![0, 0] : Fin 2 → Nat) a + S16x512.size a ≤ S16x512.size a
  h_S16x512 : 0 < S16x512.numel
  shapeCasts_S16x512_S16x512 : S16x512.ShapeCasts S16x512
  dot_S512x512_S512x512_S512x512_1_0_0_1_n_n_wf : DotDims.WF S512x512 S512x512 S512x512 [1] [0] [0] [1] [] []
  dot_S512x2048_S2048x16_S512x16_1_0_0_1_n_n_wf : DotDims.WF S512x2048 S2048x16 S512x16 [1] [0] [0] [1] [] []
  dot_S512x16_S16x512_S512x512_1_0_0_1_n_n_wf : DotDims.WF S512x16 S16x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x128x512.size a ≤ S32x128x512.size a
  hwx0_0 : ∀ i : grid0.Coords, EltTy.bits .f32 = 32 ∨ (Rect.block (s := S32x128x512) S4x128x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x128x128.size a ≤ S32x128x128.size a
  hwx0_1 : ∀ i : grid0.Coords, EltTy.bits .i32 = 32 ∨ (Rect.block (s := S32x128x128) S4x128x128.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x16.size a ≤ S2048x16.size a
  hwx0_3 : ∀ i : grid0.Coords, EltTy.bits .bf16 = 32 ∨ (Rect.block (s := S2048x16) S2048x16.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x512.size a ≤ S16x512.size a
  hwx0_4 : ∀ i : grid0.Coords, EltTy.bits .bf16 = 32 ∨ (Rect.block (s := S16x512) S16x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x2048.size a ≤ S1x2048.size a
  hwx0_5 : ∀ i : grid0.Coords, EltTy.bits .bf16 = 32 ∨ (Rect.block (s := S1x2048) S1x2048.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4x128x512.size a ≤ S32x128x512.size a
  hwx0_6 : ∀ i : grid0.Coords, EltTy.bits .f32 = 32 ∨ (Rect.block (s := S32x128x512) S4x128x512.size (cc0_transform_6 i) (hinb0_6 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S512x2048_S2048x16_S512x16_1_0_0_1_n_n : DotDims S512x2048 S2048x16 S512x16 where
  lhsContracting := [1]
  rhsContracting := [0]
  lhsNonContracting := [0]
  rhsNonContracting := [1]
  lhsBatch := []
  rhsBatch := []
  wf := dot_S512x2048_S2048x16_S512x16_1_0_0_1_n_n_wf
def dot_S512x16_S16x512_S512x512_1_0_0_1_n_n : DotDims S512x16 S16x512 S512x512 where
  lhsContracting := [1]
  rhsContracting := [0]
  lhsNonContracting := [0]
  rhsNonContracting := [1]
  lhsBatch := []
  rhsBatch := []
  wf := dot_S512x16_S16x512_S512x512_1_0_0_1_n_n_wf

abbrev win0_0 : Pipeline.Window sig grid0 :=
  Pipeline.Window.ofSpec (Memref.whole main_arg0) S4x128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S2048x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S16x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S4x128x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S32x128x512 : Shape := ⟨3, ![32, 128, 512]⟩
abbrev S32x128x128 : Shape := ⟨3, ![32, 128, 128]⟩
abbrev S2x512x512 : Shape := ⟨3, ![2, 512, 512]⟩
abbrev S16x512 : Shape := ⟨2, ![16, 512]⟩
abbrev S_ : Shape := ⟨0, ![]⟩
abbrev S512x512 : Shape := ⟨2, ![512, 512]⟩
abbrev S32x128x128x1 : Shape := ⟨4, ![32, 128, 128, 1]⟩
abbrev S1 : Shape := ⟨1, ![1]⟩
abbrev S1x1x1x1 : Shape := ⟨4, ![1, 1, 1, 1]⟩
abbrev S32x128x128x512 : Shape := ⟨4, ![32, 128, 128, 512]⟩

abbrev nBuf : Space → Nat
  | .hbm => 34
  | .vmem => 0
  | .smem => 0
  | _ => 0

abbrev bufTy : (tb : Table) → Fin (tcTables nBuf tb) → BufTy
  | .hbm, ⟨0, _⟩ => ⟨S32x128x512, .f32⟩
  | .hbm, ⟨1, _⟩ => ⟨S32x128x128, .i32⟩
  | .hbm, ⟨2, _⟩ => ⟨S2x512x512, .f32⟩
  | .hbm, ⟨3, _⟩ => ⟨S16x512, .f32⟩
  | .hbm, ⟨4, _⟩ => ⟨S_, .f32⟩
  | .hbm, ⟨5, _⟩ => ⟨S512x512, .f32⟩
  | .hbm, ⟨6, _⟩ => ⟨S32x128x512, .f32⟩
  | .hbm, ⟨7, _⟩ => ⟨S32x128x512, .f32⟩
  | .hbm, ⟨8, _⟩ => ⟨S_, .i32⟩
  | .hbm, ⟨9, _⟩ => ⟨S32x128x128, .i32⟩
  | .hbm, ⟨10, _⟩ => ⟨S32x128x128, .i1⟩
  | .hbm, ⟨11, _⟩ => ⟨S_, .i32⟩
  | .hbm, ⟨12, _⟩ => ⟨S32x128x128, .i32⟩
  | .hbm, ⟨13, _⟩ => ⟨S32x128x128, .i32⟩
  | .hbm, ⟨14, _⟩ => ⟨S32x128x128, .i32⟩
  | .hbm, ⟨15, _⟩ => ⟨S32x128x128x1, .i32⟩
  | .hbm, ⟨16, _⟩ => ⟨S1, .i32⟩
  | .hbm, ⟨17, _⟩ => ⟨S_, .i32⟩
  | .hbm, ⟨18, _⟩ => ⟨S32x128x128x1, .i32⟩
  | .hbm, ⟨19, _⟩ => ⟨S32x128x128x1, .i1⟩
  | .hbm, ⟨20, _⟩ => ⟨S1x1x1x1, .i32⟩
  | .hbm, ⟨21, _⟩ => ⟨S32x128x128x1, .i32⟩
  | .hbm, ⟨22, _⟩ => ⟨S32x128x128x1, .i1⟩
  | .hbm, ⟨23, _⟩ => ⟨S32x128x128x1, .i1⟩
  | .hbm, ⟨24, _⟩ => ⟨S_, .i1⟩
  | .hbm, ⟨25, _⟩ => ⟨S32x128x128, .i1⟩
  | .hbm, ⟨26, _⟩ => ⟨S32x128x128x512, .f32⟩
  | .hbm, ⟨27, _⟩ => ⟨S32x128x128x512, .i1⟩
  | .hbm, ⟨28, _⟩ => ⟨S_, .f32⟩
  | .hbm, ⟨29, _⟩ => ⟨S32x128x128x512, .f32⟩
  | .hbm, ⟨30, _⟩ => ⟨S32x128x128x512, .f32⟩
  | .hbm, ⟨31, _⟩ => ⟨S_, .f32⟩
  | .hbm, ⟨32, _⟩ => ⟨S32x128x512, .f32⟩
  | .hbm, ⟨33, _⟩ => ⟨S32x128x512, .f32⟩
  | _, _ => ⟨S32x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v3 : Ref sig .tc := ⟨.hbm, 30, rfl⟩
abbrev main_cst_0 : Ref sig .tc := ⟨.hbm, 31, rfl⟩
abbrev main_v4 : Ref sig .tc := ⟨.hbm, 32, rfl⟩
abbrev main_v5 : Ref sig .tc := ⟨.hbm, 33, rfl⟩

abbrev nD : Nat := 1
abbrev τ : Topo := Topo.v7x

variable {F : FTy → Type} [FloatOps F]

class Facts₀ : Prop where
  reducesTo_S2x512x512_S512x512_d0 : S2x512x512.ReducesTo [0] S512x512
  h_S_ : 0 < S_.numel
  bcast_S_S32x128x128 : S_.BroadcastsInDim S32x128x128 (![] : Fin 0 → Fin S32x128x128.rank)
  bcast_S32x128x128_S32x128x128x1_0_1_2 : S32x128x128.BroadcastsInDim S32x128x128x1 (![0, 1, 2] : Fin 3 → Fin S32x128x128x1.rank)
  bcast_S_S32x128x128x1 : S_.BroadcastsInDim S32x128x128x1 (![] : Fin 0 → Fin S32x128x128x1.rank)
  bcast_S1_S1x1x1x1_3 : S1.BroadcastsInDim S1x1x1x1 (![3] : Fin 1 → Fin S1x1x1x1.rank)
  bcast_S1x1x1x1_S32x128x128x1_0_1_2_3 : S1x1x1x1.BroadcastsInDim S32x128x128x1 (![0, 1, 2, 3] : Fin 4 → Fin S32x128x128x1.rank)
  reducesTo_S32x128x128x1_S32x128x128_d3 : S32x128x128x1.ReducesTo [3] S32x128x128
  bcast_S32x128x128_S32x128x128x512_0_1_2 : S32x128x128.BroadcastsInDim S32x128x128x512 (![0, 1, 2] : Fin 3 → Fin S32x128x128x512.rank)
  bcast_S_S32x128x128x512 : S_.BroadcastsInDim S32x128x128x512 (![] : Fin 0 → Fin S32x128x128x512.rank)
  reducesTo_S32x128x128x512_S32x128x512_d2 : S32x128x128x512.ReducesTo [2] S32x128x512
  dot_S32x128x512_S512x512_S32x128x512_2_1_01_0_n_n_wf : DotDims.WF S32x128x512 S512x512 S32x128x512 [2] [1] [0, 1] [0] [] []
  gather_S16x512_S32x128x128x1_S32x128x128x512_3_0_n_n_0_3_1512_wf : GatherDims.WF S16x512 S32x128x128x1 S32x128x128x512 [3] [0] [] [0] [] 3 ![1, 512]

variable [Facts₀]

def dot_S32x128x512_S512x512_S32x128x512_2_1_01_0_n_n : DotDims S32x128x512 S512x512 S32x128x512 where
  lhsContracting := [2]
  rhsContracting := [1]
  lhsNonContracting := [0, 1]
  rhsNonContracting := [0]
  lhsBatch := []
  rhsBatch := []
  wf := dot_S32x128x512_S512x512_S32x128x512_2_1_01_0_n_n_wf
def gather_S16x512_S32x128x128x1_S32x128x128x512_3_0_n_n_0_3_1512 : GatherDims S16x512 S32x128x128x1 S32x128x128x512 where
  offsetDims := [3]
  collapsedSliceDims := [0]
  operandBatchingDims := []
  startIndicesBatchingDims := []
  startIndexMap := [0]
  indexVectorDim := 3
  sliceSizes := ![1, 512]
  wf := gather_S16x512_S32x128x128x1_S32x128x128x512_3_0_n_n_0_3_1512_wf

class Facts : Prop extends Facts₀ where

variable [Facts]
-- ==== Proof.Spec.lean ====
/-
  What both programs compute, as ONE function of the four argument arrays, index by index over the extended reals.

  For a node `(b, n)` and an output feature `o`:

    out[b, n, o] = feature[b, n, o]
                   + Σ_i feature[b, n, i] · (Σ_d weights[d, o, i])          -- the two directions' linear maps, summed
                   + Σ_k bias[label(graph[b, n, k]), o]                      -- one bias row per edge of the node

  The direction sum sits INSIDE the contraction on both sides (each program adds the two weight matrices first and
  contracts once), so no distributive law is needed for the linear part.  The edge term is where the programs differ
  in arrangement: one gathers a bias row per edge and sums over the 128 edges; the other counts, per label, the edges
  carrying it and contracts the 16 counts against the bias table.  `label` reads the index word signed and clamps it
  into `[0, 15]`; on words already in that range it is the word itself.
-/
import Idealize.ShloMosaic.PureOps.Ideal
import Idealize.ShloMosaic.Lib.ValueIdx

noncomputable section

namespace Cert.Spec

open Idealize.ShloMosaic Idealize.ShloMosaic.ValueIdx

/-- node features: batch × nodes × features -/
abbrev SX : Shape := ⟨3, ![32, 128, 512]⟩
/-- edge labels: batch × nodes × nodes -/
abbrev SG : Shape := ⟨3, ![32, 128, 128]⟩
/-- linear weights: direction × out × in -/
abbrev SW : Shape := ⟨3, ![2, 512, 512]⟩
/-- bias table: label × features -/
abbrev SB : Shape := ⟨2, ![16, 512]⟩

/-- The row of the bias table an index word selects: the word read signed, clamped into `[0, 15]`. -/
def lab (v : BitVec 32) : Fin 16 := ⟨min v.toInt.toNat 15, by omega⟩

/-- Every edge label is a row of the 16-row table. -/
def InRange (g : IVec SG 32) : Prop := ∀ i, 0 ≤ (g i).toInt ∧ (g i).toInt < 16

/-- Every entry of the array is a real number (neither infinity). -/
def AllReal {s : Shape} (x : s.Idx → EReal) : Prop := ∀ i, ∃ r : ℝ, x i = (r : EReal)

/-- The result at node `(b, n)`, feature `o`. -/
def Gat (x : SX.Idx → EReal) (g : IVec SG 32) (w : SW.Idx → EReal) (bias : SB.Idx → EReal)
    (b : Fin 32) (n : Fin 128) (o : Fin 512) : EReal :=
  (x (ix3 b n o) + ∑ i : Fin 512, x (ix3 b n i) * ∑ d : Fin 2, w (ix3 d o i))
    + ∑ k : Fin 128, bias (ix2 (lab (g (ix3 b n k))) o)

/-- The whole result array. -/
def G (x : SX.Idx → EReal) (g : IVec SG 32) (w : SW.Idx → EReal) (bias : SB.Idx → EReal) : SX.Idx → EReal :=
  fun j => Gat x g w bias (j 0) (j 1) (j 2)

theorem G_apply (x : SX.Idx → EReal) (g : IVec SG 32) (w : SW.Idx → EReal) (bias : SB.Idx → EReal)
    (b : Fin 32) (n : Fin 128) (o : Fin 512) : G x g w bias (ix3 b n o) = Gat x g w bias b n o := rfl

/-- On a word in range the label is the word's value. -/
theorem lab_val_of_inRange {v : BitVec 32} (h0 : 0 ≤ v.toInt) (h1 : v.toInt < 16) : ((lab v).val : ℤ) = v.toInt := by
  unfold lab
  show ((min v.toInt.toNat 15 : ℕ) : ℤ) = v.toInt
  omega

end Cert.Spec

end
-- ==== Proof.RefTerm.lean ====
/-
  The reference's result as ONE pure term of its four argument arrays: the host operations of its program composed in
  order.  The linear part adds the two directions' weight matrices and contracts the features against the sum; the edge
  part reads, for every edge, the bias row its label selects (a negative label counted from the table's end, a label
  outside the table replaced by the not-a-number pattern), and sums the 128 rows of a node.
-/
import proofs.«424799_j73358041415911_3_alg».proof.Proof.Gen.ReferenceIdeal

noncomputable section

namespace Cert.ReferenceIdeal.RefValue

open Cert.ReferenceIdeal Cert.ReferenceIdeal.Gen Idealize.ShloMosaic

variable {F : FTy → Type} [FloatOps F]

/-- The row index each edge reads, as the index array of the gather: a negative word has 16 added. -/
def takeIdx (g : IVec S32x128x128 32) : IVec S32x128x128x1 32 :=
  broadcastInDim S32x128x128x1 ![0, 1, 2] bcast_S32x128x128_S32x128x128x1_0_1_2
    (select (cmpi .slt g (broadcastInDim S32x128x128 ![] bcast_S_S32x128x128 (constantI S_ 32 0#32)))
      (addi g (broadcastInDim S32x128x128 ![] bcast_S_S32x128x128 (constantI S_ 32 16#32))) g)

/-- Whether that row index lies inside the table, `0 ≤ · ≤ 15`, per edge. -/
def takeOk (g : IVec S32x128x128 32) : IVec S32x128x128 1 :=
  Host.reduce IntOp.andi
    (andi (cmpi .sge (takeIdx g) (broadcastInDim S32x128x128x1 ![] bcast_S_S32x128x128x1 (constantI S_ 32 0#32)))
      (cmpi .sle (takeIdx g) (broadcastInDim S32x128x128x1 ![0, 1, 2, 3] bcast_S1x1x1x1_S32x128x128x1_0_1_2_3
        (broadcastInDim S1x1x1x1 ![3] bcast_S1_S1x1x1x1_3 (constantI S1 32 15#32)))))
    (constantI S_ 1 1#1) reducesTo_S32x128x128x1_S32x128x128_d3 h_S_

/-- The bias row of every edge: the gathered row where the index is inside the table, the not-a-number pattern elsewhere. -/
def taken (g : IVec S32x128x128 32) (bias : FVec F S16x512 .f32) : FVec F S32x128x128x512 .f32 :=
  select (broadcastInDim S32x128x128x512 ![0, 1, 2] bcast_S32x128x128_S32x128x128x512_0_1_2 (takeOk g))
    (Host.gather gather_S16x512_S32x128x128x1_S32x128x128x512_3_0_n_n_0_3_1512 bias (takeIdx g))
    (broadcastInDim S32x128x128x512 ![] bcast_S_S32x128x128x512 (constant S_ .f32 0x7FC00000#32))

/-- The reference's result. -/
def refTerm (x : FVec F S32x128x512 .f32) (g : IVec S32x128x128 32) (w : FVec F S2x512x512 .f32) (bias : FVec F S16x512 .f32) :
    FVec F S32x128x512 .f32 :=
  addf
    (addf x (Host.dotGeneral dot_S32x128x512_S512x512_S32x128x512_2_1_01_0_n_n none x
      (Host.reduceAdd w (constant S_ .f32 0x00000000#32) reducesTo_S2x512x512_S512x512_d0 h_S_)))
    (Host.reduceAdd (taken g bias) (constant S_ .f32 0x00000000#32) reducesTo_S32x128x128x512_S32x128x512_d2 h_S_)

end Cert.ReferenceIdeal.RefValue

end
-- ==== Proof.RefRun.lean ====
/-
  The reference program's run: every weakly fair execution terminates with the result buffer at `refTerm` of the
  argument arrays as launched, the arguments unchanged.
-/
import proofs.«424799_j73358041415911_3_alg».proof.Proof.RefTerm
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The program's thirty operations in order: the entry function's first four (the zero, the two directions' weight
    matrices summed, the contraction, the features added), then the row lookup's twenty-three written out at its call
    over that call's buffers (the sign test and the wrapped index, the selection between them, the index array, the
    range test folded over its last axis, the gathered rows, the fill value and the selection), then the last three
    (the zero, the sum over a node's edges, the final sum). -/
abbrev ops : List (HloOp τ sig (Elt F)) :=
  [ nullary main_cst (constant S_ .f32 0x00000000#32),
    binary main_arg2 main_cst main_v0 ((fun x v => Host.reduceAdd x v reducesTo_S2x512x512_S512x512_d0 h_S_) : (⟨S2x512x512, .f32⟩ : BufTy).Contents (Elt F) → (⟨S_, .f32⟩ : BufTy).Contents (Elt F) → (⟨S512x512, .f32⟩ : BufTy).Contents (Elt F)),
    binary main_arg0 main_v0 main_v1 ((fun l r => Host.dotGeneral dot_S32x128x512_S512x512_S32x128x512_2_1_01_0_n_n none l r) : (⟨S32x128x512, .f32⟩ : BufTy).Contents (Elt F) → (⟨S512x512, .f32⟩ : BufTy).Contents (Elt F) → (⟨S32x128x512, .f32⟩ : BufTy).Contents (Elt F)),
    binary main_arg0 main_v1 main_v2 (addf : (⟨S32x128x512, .f32⟩ : BufTy).Contents (Elt F) → (⟨S32x128x512, .f32⟩ : BufTy).Contents (Elt F) → (⟨S32x128x512, .f32⟩ : BufTy).Contents (Elt F)),
    TRef.nullary main_call0.c (constantI S_ 32 0#32),
    TRef.unary main_call0.c main_call0.v0 (broadcastInDim S32x128x128 ![] bcast_S_S32x128x128),
    TRef.binary (.of main_arg1) main_call0.v0 main_call0.v1 (cmpi .slt),
    TRef.nullary main_call0.c_0 (constantI S_ 32 16#32),
    TRef.unary main_call0.c_0 main_call0.v2 (broadcastInDim S32x128x128 ![] bcast_S_S32x128x128),
    TRef.binary (.of main_arg1) main_call0.v2 main_call0.v3 addi,
    TRef.ternary main_call0.v1 main_call0.v3 (.of main_arg1) main_call0.call0.v0 select,
    TRef.unary main_call0.call0.v0 main_call0.v5 (broadcastInDim S32x128x128x1 ![0, 1, 2] bcast_S32x128x128_S32x128x128x1_0_1_2),
    TRef.nullary main_call0.c_1 (constantI S1 32 15#32),
    TRef.nullary main_call0.c_2 (constantI S_ 32 0#32),
    TRef.unary main_call0.c_2 main_call0.v6 (broadcastInDim S32x128x128x1 ![] bcast_S_S32x128x128x1),
    TRef.binary main_call0.v5 main_call0.v6 main_call0.v7 (cmpi .sge),
    TRef.unary main_call0.c_1 main_call0.v8 (broadcastInDim S1x1x1x1 ![3] bcast_S1_S1x1x1x1_3),
    TRef.unary main_call0.v8 main_call0.v9 (broadcastInDim S32x128x128x1 ![0, 1, 2, 3] bcast_S1x1x1x1_S32x128x128x1_0_1_2_3),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S32x128x128x1_S32x128x128_d3 h_S_),
    TRef.binary (.of main_arg3) main_call0.v5 main_call0.v13 (fun x i => Host.gather gather_S16x512_S32x128x128x1_S32x128x128x512_3_0_n_n_0_3_1512 x i),
    TRef.unary main_call0.v12 main_call0.v14 (broadcastInDim S32x128x128x512 ![0, 1, 2] bcast_S32x128x128_S32x128x128x512_0_1_2),
    TRef.nullary main_call0.cst (constant S_ .f32 0x7FC00000#32),
    TRef.unary main_call0.cst main_call0.v15 (broadcastInDim S32x128x128x512 ![] bcast_S_S32x128x128x512),
    TRef.ternary main_call0.v14 main_call0.v13 main_call0.v15 main_call0.v16 select,
    nullary main_cst_0 (constant S_ .f32 0x00000000#32),
    binary main_v3 main_cst_0 main_v4 ((fun x v => Host.reduceAdd x v reducesTo_S32x128x128x512_S32x128x512_d2 h_S_) : (⟨S32x128x128x512, .f32⟩ : BufTy).Contents (Elt F) → (⟨S_, .f32⟩ : BufTy).Contents (Elt F) → (⟨S32x128x512, .f32⟩ : BufTy).Contents (Elt F)),
    binary main_v2 main_v4 main_v5 (addf : (⟨S32x128x512, .f32⟩ : BufTy).Contents (Elt F) → (⟨S32x128x512, .f32⟩ : BufTy).Contents (Elt F) → (⟨S32x128x512, .f32⟩ : BufTy).Contents (Elt F)) ]

-- thirty binds re-associated: the rewrite under the chain recurses once per statement
set_option maxRecDepth 4096 in
/-- The entry function is that straight line: the two outlined functions unfolded at their calls and the call's record
    at its fields, both sides are one chain of steps once sequencing is re-associated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., binary_bufs_sub .., binary_bufs_sub .., binary_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    nullary_bufs_sub .., binary_bufs_sub .., binary_bufs_sub ..⟩

/-- A typed reference's two transports, from the value's type to its buffer's type and back, compose to the identity. -/
private theorem ofBuf_toBuf {T : BufTy} (x : TRef sig T) (v : T.Contents (Elt F)) : x.ofBuf (x.toBuf v) = v := by
  obtain ⟨r, h, _, _⟩ := x; subst h; rfl

/-- The fold of the thirty operations at the result buffer is `refTerm` of the arguments' contents: each operation's
    result read at its own buffer is its function's value and elsewhere what was there; a typed reference's two
    transports, from the value's type to the buffer's and back, compose to the identity, and at an argument's literal
    reference the one transport is the identity.  The reductions, the gather and the contraction are never opened: the
    two sides agree as written. -/
theorem out_eq (V : Valuation τ sig (Elt F)) :
    after ops V (main_v5 : DevRef τ sig)
      = refTerm (V (main_arg0 : DevRef τ sig)) (V (main_arg1 : DevRef τ sig)) (V (main_arg2 : DevRef τ sig))
          (V (main_arg3 : DevRef τ sig)) := by
  unfold refTerm taken takeOk takeIdx
  after_results_simp
  simp only [ofBuf_toBuf]
  simp only [TRef.ofBuf, cast_eq]

/-- No operation writes an argument's buffer. -/
theorem arg0_eq (V : Valuation τ sig (Elt F)) :
    after ops V (main_arg0 : DevRef τ sig) = V (main_arg0 : DevRef τ sig) := by after_results
theorem arg1_eq (V : Valuation τ sig (Elt F)) :
    after ops V (main_arg1 : DevRef τ sig) = V (main_arg1 : DevRef τ sig) := by after_results
theorem arg2_eq (V : Valuation τ sig (Elt F)) :
    after ops V (main_arg2 : DevRef τ sig) = V (main_arg2 : DevRef τ sig) := by after_results
theorem arg3_eq (V : Valuation τ sig (Elt F)) :
    after ops V (main_arg3 : DevRef τ sig) = V (main_arg3 : DevRef τ sig) := by after_results

/-- On every device, for any float values, from any memory with zero counters: every weakly fair execution of the
    entry function terminates with the result buffer at `refTerm` of the arguments' launch contents and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v5)
          = refTerm (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  exact (θ_run defs _ _).mono (fun _ h c => ⟨(h c main_v5).trans (out_eq _), (h c main_arg0).trans (arg0_eq _),
      (h c main_arg1).trans (arg1_eq _), (h c main_arg2).trans (arg2_eq _), (h c main_arg3).trans (arg3_eq _)⟩)
    (run_seq scopedRefs_eq scopedSems_eq defs main (fun _ => ops) main_eq (fun _ => ops_sub) m ρ)

end Cert.ReferenceIdeal.RefValue

end
-- ==== Proof.RefRead.lean ====
/-
  The reference's term read index by index over the extended reals: on edge labels inside the table it is the
  specification's function.

  Each host operation is read at an index by one small lemma over explicit coordinates: the broadcasts of the edge
  arrays, the sign test and the range test on a label, the gather of a bias row, the two sums over one axis, and
  the contraction of the features against the summed weights.  The assembly rewrites the term with them, outermost
  operation first.
-/
import proofs.«424799_j73358041415911_3_alg».proof.Proof.RefTerm
import proofs.«424799_j73358041415911_3_alg».proof.Proof.Spec
import Idealize.ShloMosaic.PureOps.Ideal.Laws
import Idealize.ShloMosaic.Lib.ValueIdx

noncomputable section

namespace Cert.ReferenceIdeal.RefValue

open Cert.ReferenceIdeal Cert.ReferenceIdeal.Gen Idealize.ShloMosaic Idealize.ShloMosaic.ValueIdx

/-! ## The edge labels: the index the gather reads, and the range test -/

/-- An array of edges laid along the first three axes of a rank-4 array reads, at `(b, n, k, z)`, the edge `(b, n, k)`. -/
theorem bcast_edges_apply {α : Type} {m : Nat}
    (h : S32x128x128.BroadcastsInDim (⟨4, ![32, 128, 128, m]⟩ : Shape) (![0, 1, 2] : Fin 3 → Fin 4))
    (v : S32x128x128.Idx → α) (b : Fin 32) (n : Fin 128) (k : Fin 128) (z : Fin m) :
    broadcastInDim (⟨4, ![32, 128, 128, m]⟩ : Shape) ![0, 1, 2] h v (ix4 b n k z) = v (ix3 b n k) := by
  simp only [broadcastInDim]
  congr 1
  funext a
  match a with
  | ⟨0, _⟩ =>
    apply Fin.ext
    split
    · next h1 => change 32 = 1 at h1; omega
    · rfl
  | ⟨1, _⟩ =>
    apply Fin.ext
    split
    · next h1 => change 128 = 1 at h1; omega
    · rfl
  | ⟨2, _⟩ =>
    apply Fin.ext
    split
    · next h1 => change 128 = 1 at h1; omega
    · rfl

/-- On a label that is not negative the index the gather reads is the label itself. -/
theorem takeIdx_apply (g : IVec S32x128x128 32) (hg : Cert.Spec.InRange g) (b : Fin 32) (n : Fin 128) (k : Fin 128) (z : Fin 1) :
    takeIdx g (ix4 b n k z) = g (ix3 b n k) := by
  unfold takeIdx
  rw [bcast_edges_apply, select_apply]
  have h0 : ¬ (cmpi .slt g (broadcastInDim S32x128x128 ![] bcast_S_S32x128x128 (constantI S_ 32 0#32))) (ix3 b n k) = 1#1 := by
    intro h
    have h' : (g (ix3 b n k)).toInt < (0#32 : BitVec 32).toInt := IntOp.cmpi_slt.mp h
    have := (hg (ix3 b n k)).1
    simp at h'
    omega
  rw [eq_zero_of_ne_one h0, select_zero]

/-- A left fold by `and` that starts at 1 and meets only 1s ends at 1. -/
theorem foldl_andi_one {ι : Type} (l : List ι) : l.foldl (fun r _ => IntOp.andi r 1#1) 1#1 = 1#1 := by
  induction l with
  | nil => rfl
  | cons a l ih =>
    rw [List.foldl_cons, show IntOp.andi 1#1 1#1 = 1#1 by decide]
    exact ih

/-- A reduction by `and` of an array of 1s, from 1, is 1 everywhere. -/
theorem reduce_andi_of_all_one {s t u : Shape} {axes : List (Fin s.rank)} (x : s.Idx → BitVec 1) (init : u.Idx → BitVec 1)
    (h : s.ReducesTo axes t) (hu : 0 < u.numel) (hx : ∀ i, x i = 1#1) (hi : init (Shape.Idx.first hu) = 1#1) (j : t.Idx) :
    Host.reduce IntOp.andi x init h hu j = 1#1 := by
  rw [Host.reduce_eq_foldl, hi, show x = fun _ => 1#1 from funext hx]
  exact foldl_andi_one _

/-- On labels inside the table the range test passes at every edge. -/
theorem takeOk_apply (g : IVec S32x128x128 32) (hg : Cert.Spec.InRange g) (j : S32x128x128.Idx) : takeOk g j = 1#1 := by
  unfold takeOk
  refine reduce_andi_of_all_one _ _ _ _ (fun i => ?_) rfl j
  obtain ⟨b, n, k, z, rfl⟩ : ∃ (b : Fin 32) (n : Fin 128) (k : Fin 128) (z : Fin 1), i = ix4 b n k z :=
    ⟨i 0, i 1, i 2, i 3, eq_ix4 i⟩
  show IntOp.andi (IntOp.cmpi .sge (takeIdx g (ix4 b n k z)) 0#32) (IntOp.cmpi .sle (takeIdx g (ix4 b n k z)) 15#32) = 1#1
  rw [takeIdx_apply g hg]
  have h0 := (hg (ix3 b n k)).1
  have h1 := (hg (ix3 b n k)).2
  refine IntOp.andi_eq_one.mpr ⟨IntOp.cmpi_sge.mpr ?_, IntOp.cmpi_sle.mpr ?_⟩
  · show (0#32 : BitVec 32).toInt ≤ _
    simp
    omega
  · show _ ≤ (15#32 : BitVec 32).toInt
    have : (15#32 : BitVec 32).toInt = 15 := by decide
    omega

/-! ## The gather of a bias row -/

/-- The gather read at `(b, n, k, o)`: the table's row at the start index `idx[b, n, k, 0]`, read signed and clamped into
    `[0, 15]`, at column `o`. -/
theorem gather_apply {α : Type} (bias : S16x512.Idx → α) (idx : IVec S32x128x128x1 32)
    (b : Fin 32) (n : Fin 128) (k : Fin 128) (o : Fin 512) :
    Host.gather gather_S16x512_S32x128x128x1_S32x128x128x512_3_0_n_n_0_3_1512 bias idx (ix4 b n k o)
      = bias (ix2 (⟨min (idx (ix4 b n k 0)).toInt.toNat 15, by omega⟩ : Fin 16) o) := by
  unfold Host.gather
  congr 1
  funext a
  match a with
  | ⟨0, _⟩ =>
    refine Fin.ext ?_
    show gather_S16x512_S32x128x128x1_S32x128x128x512_3_0_n_n_0_3_1512.start (ix4 b n k o) idx 0
        + gather_S16x512_S32x128x128x1_S32x128x128x512_3_0_n_n_0_3_1512.batchCoord (ix4 b n k o) 0
        + gather_S16x512_S32x128x128x1_S32x128x128x512_3_0_n_n_0_3_1512.offCoord (ix4 b n k o) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S16x512_S32x128x128x1_S32x128x128x512_3_0_n_n_0_3_1512.startIndexMap from
      List.mem_singleton.mpr rfl)]
    have hsi : gather_S16x512_S32x128x128x1_S32x128x128x512_3_0_n_n_0_3_1512.siIdx (ix4 b n k o)
        ⟨List.idxOf (0 : Fin 2) gather_S16x512_S32x128x128x1_S32x128x128x512_3_0_n_n_0_3_1512.startIndexMap,
          List.idxOf_lt_length_iff.2 (List.mem_singleton.mpr rfl)⟩ = ix4 b n k 0 := by
      funext c; refine Fin.ext ?_
      match c with
      | ⟨0, _⟩ => rfl
      | ⟨1, _⟩ => rfl
      | ⟨2, _⟩ => rfl
      | ⟨3, _⟩ => rfl
    rw [hsi]
    rfl
  | ⟨1, _⟩ =>
    refine Fin.ext ?_
    show gather_S16x512_S32x128x128x1_S32x128x128x512_3_0_n_n_0_3_1512.start (ix4 b n k o) idx 1
        + gather_S16x512_S32x128x128x1_S32x128x128x512_3_0_n_n_0_3_1512.batchCoord (ix4 b n k o) 1
        + gather_S16x512_S32x128x128x1_S32x128x128x512_3_0_n_n_0_3_1512.offCoord (ix4 b n k o) 1 = o.val
    rw [GatherDims.batchCoord_eq_zero _ _ _ List.not_mem_nil]
    unfold GatherDims.start
    rw [dif_neg (show ¬ (1 : Fin 2) ∈ gather_S16x512_S32x128x128x1_S32x128x128x512_3_0_n_n_0_3_1512.startIndexMap by decide)]
    simp only [Nat.add_zero, Nat.zero_add]
    unfold GatherDims.offCoord
    rw [dif_pos (show (1 : Fin 2) ∈ gather_S16x512_S32x128x128x1_S32x128x128x512_3_0_n_n_0_3_1512.sKept by decide)]
    rfl

/-! ## The two sums over one axis -/

/-- The sum over the edge axis of a rank-4 array, read at `(b, n, o)`. -/
theorem edgeSum_apply (y : FVec Ideal S32x128x128x512 .f32) (b : Fin 32) (n : Fin 128) (o : Fin 512) :
    Host.reduceAdd (F := Ideal) y (constant (F := Ideal) S_ .f32 0x00000000#32) reducesTo_S32x128x128x512_S32x128x512_d2 h_S_ (ix3 b n o)
      = ∑ k : Fin 128, y (ix4 b n k o) := by
  unfold Host.reduceAdd
  rw [Ideal.hostReduceAdd_def]
  have hR : Shape.Reduces S32x128x128x512 [2] S32x128x512 := by decide
  refine (Ideal.hostReduceAdd_single reducesTo_S32x128x128x512_S32x128x512_d2 hR y _ (ix3 b n o)).trans ?_
  rw [constant_apply, Ideal.ofBits_zero_f32, zero_add]
  refine Finset.sum_congr rfl fun k _ => congrArg y ?_
  funext c
  apply Fin.ext
  match c with
  | ⟨0, _⟩ => rfl
  | ⟨1, _⟩ => rfl
  | ⟨2, _⟩ => rfl
  | ⟨3, _⟩ => rfl

/-- The sum over the direction axis of the weights, read at `(o, i)`. -/
theorem dirSum_apply (w : FVec Ideal S2x512x512 .f32) (o : Fin 512) (i : Fin 512) :
    Host.reduceAdd (F := Ideal) w (constant (F := Ideal) S_ .f32 0x00000000#32) reducesTo_S2x512x512_S512x512_d0 h_S_ (ix2 o i)
      = ∑ d : Fin 2, w (ix3 d o i) := by
  unfold Host.reduceAdd
  rw [Ideal.hostReduceAdd_def]
  have hR : Shape.Reduces S2x512x512 [0] S512x512 := by decide
  refine (Ideal.hostReduceAdd_single reducesTo_S2x512x512_S512x512_d0 hR w _ (ix2 o i)).trans ?_
  rw [constant_apply, Ideal.ofBits_zero_f32, zero_add]
  refine Finset.sum_congr rfl fun d _ => congrArg w ?_
  funext c
  apply Fin.ext
  match c with
  | ⟨0, _⟩ => rfl
  | ⟨1, _⟩ => rfl
  | ⟨2, _⟩ => rfl

/-! ## The contraction -/

/-! The contraction's operand indices, axis by axis. -/

theorem lhs_dot_0 (i : S32x128x512.Idx) (q : dot_S32x128x512_S512x512_S32x128x512_2_1_01_0_n_n.contr.Idx) :
    (dot_S32x128x512_S512x512_S32x128x512_2_1_01_0_n_n.lhsIdx i q (0 : Fin S32x128x512.rank)).val = (i 0).val := by
  unfold DotDims.lhsIdx
  rw [dif_neg (show ¬(0 : Fin S32x128x512.rank) ∈ dot_S32x128x512_S512x512_S32x128x512_2_1_01_0_n_n.lhsBatch by decide),
    dif_pos (show (0 : Fin S32x128x512.rank) ∈ dot_S32x128x512_S512x512_S32x128x512_2_1_01_0_n_n.lhsNonContracting by decide)]
  rfl

theorem lhs_dot_1 (i : S32x128x512.Idx) (q : dot_S32x128x512_S512x512_S32x128x512_2_1_01_0_n_n.contr.Idx) :
    (dot_S32x128x512_S512x512_S32x128x512_2_1_01_0_n_n.lhsIdx i q (1 : Fin S32x128x512.rank)).val = (i 1).val := by
  unfold DotDims.lhsIdx
  rw [dif_neg (show ¬(1 : Fin S32x128x512.rank) ∈ dot_S32x128x512_S512x512_S32x128x512_2_1_01_0_n_n.lhsBatch by decide),
    dif_pos (show (1 : Fin S32x128x512.rank) ∈ dot_S32x128x512_S512x512_S32x128x512_2_1_01_0_n_n.lhsNonContracting by decide)]
  rfl

theorem lhs_dot_2 (i : S32x128x512.Idx) (q : dot_S32x128x512_S512x512_S32x128x512_2_1_01_0_n_n.contr.Idx) :
    (dot_S32x128x512_S512x512_S32x128x512_2_1_01_0_n_n.lhsIdx i q (2 : Fin S32x128x512.rank)).val = (q ⟨0, by decide⟩).val :=
  dot_S32x128x512_S512x512_S32x128x512_2_1_01_0_n_n.lhsIdx_val_of_single rfl i q

theorem rhs_dot_0 (i : S32x128x512.Idx) (q : dot_S32x128x512_S512x512_S32x128x512_2_1_01_0_n_n.contr.Idx) :
    (dot_S32x128x512_S512x512_S32x128x512_2_1_01_0_n_n.rhsIdx i q (0 : Fin S512x512.rank)).val = (i 2).val := by
  unfold DotDims.rhsIdx
  rw [dif_neg (show ¬(0 : Fin S512x512.rank) ∈ dot_S32x128x512_S512x512_S32x128x512_2_1_01_0_n_n.rhsBatch by decide),
    dif_pos (show (0 : Fin S512x512.rank) ∈ dot_S32x128x512_S512x512_S32x128x512_2_1_01_0_n_n.rhsNonContracting by decide)]
  rfl

theorem rhs_dot_1 (i : S32x128x512.Idx) (q : dot_S32x128x512_S512x512_S32x128x512_2_1_01_0_n_n.contr.Idx) :
    (dot_S32x128x512_S512x512_S32x128x512_2_1_01_0_n_n.rhsIdx i q (1 : Fin S512x512.rank)).val = (q ⟨0, by decide⟩).val :=
  dot_S32x128x512_S512x512_S32x128x512_2_1_01_0_n_n.rhsIdx_val_of_single rfl i q

/-- The contraction read at `(b, n, o)`: the node's features against row `o` of the matrix. -/
theorem dot_apply (x : FVec Ideal S32x128x512 .f32) (W : FVec Ideal S512x512 .f32) (b : Fin 32) (n : Fin 128) (o : Fin 512) :
    Host.dotGeneral (F := Ideal) dot_S32x128x512_S512x512_S32x128x512_2_1_01_0_n_n none x W (ix3 b n o) = ∑ i : Fin 512, x (ix3 b n i) * W (ix2 o i) := by
  simp only [Host.dotGeneral]
  rw [Ideal.dotGeneral_apply, ← Equiv.sum_comp (contrEquiv1 dot_S32x128x512_S512x512_S32x128x512_2_1_01_0_n_n 512 rfl rfl).symm]
  refine Finset.sum_congr rfl fun k _ => ?_
  have hk := contrEquiv1_symm_val dot_S32x128x512_S512x512_S32x128x512_2_1_01_0_n_n 512 rfl rfl k
  have el : dot_S32x128x512_S512x512_S32x128x512_2_1_01_0_n_n.lhsIdx (ix3 b n o) ((contrEquiv1 dot_S32x128x512_S512x512_S32x128x512_2_1_01_0_n_n 512 rfl rfl).symm k) = ix3 b n k :=
    funext fun a => Fin.ext (by
      match a with
      | ⟨0, _⟩ => exact lhs_dot_0 _ _
      | ⟨1, _⟩ => exact lhs_dot_1 _ _
      | ⟨2, _⟩ => exact (lhs_dot_2 _ _).trans hk)
  have er : dot_S32x128x512_S512x512_S32x128x512_2_1_01_0_n_n.rhsIdx (ix3 b n o) ((contrEquiv1 dot_S32x128x512_S512x512_S32x128x512_2_1_01_0_n_n 512 rfl rfl).symm k) = ix2 o k :=
    funext fun a => Fin.ext (by
      match a with
      | ⟨0, _⟩ => exact rhs_dot_0 _ _
      | ⟨1, _⟩ => exact (rhs_dot_1 _ _).trans hk)
  rw [el, er]

/-! ## The assembly -/

/-- The bias row of an edge whose label is inside the table: the table's row at the label, column `o`. -/
theorem taken_apply (g : IVec S32x128x128 32) (bias : FVec Ideal S16x512 .f32) (hg : Cert.Spec.InRange g)
    (b : Fin 32) (n : Fin 128) (k : Fin 128) (o : Fin 512) :
    taken (F := Ideal) g bias (ix4 b n k o) = bias (ix2 (Cert.Spec.lab (g (ix3 b n k))) o) := by
  unfold taken
  rw [select_apply, bcast_edges_apply, takeOk_apply g hg, select_one, gather_apply]
  refine congrArg (fun r => bias (ix2 r o)) (Fin.ext ?_)
  show min (takeIdx g (ix4 b n k 0)).toInt.toNat 15 = min (g (ix3 b n k)).toInt.toNat 15
  rw [takeIdx_apply g hg]

theorem refTerm_eq (x : FVec Ideal S32x128x512 .f32) (g : IVec S32x128x128 32) (w : FVec Ideal S2x512x512 .f32)
    (bias : FVec Ideal S16x512 .f32) (hg : Cert.Spec.InRange g) :
    refTerm (F := Ideal) x g w bias = Cert.Spec.G x g w bias := by
  funext j
  obtain ⟨b, n, o, rfl⟩ : ∃ (b : Fin 32) (n : Fin 128) (o : Fin 512), j = ix3 b n o := ⟨j 0, j 1, j 2, eq_ix3 j⟩
  rw [Cert.Spec.G_apply]
  unfold refTerm Cert.Spec.Gat
  rw [addf_apply, addf_apply, dot_apply, edgeSum_apply]
  simp only [dirSum_apply, taken_apply g bias hg]

end Cert.ReferenceIdeal.RefValue

end
-- ==== Proof.PreRead.lean ====
/-
  What the precondition says of the argument arrays: every float entry is a real number, every edge label a row of
  the 16-row table.

  The precondition is a conjunction of five universally quantified tests, each printed as a reduction by `and` of an
  array of one-bit words into a single word, and the five words joined by `and`.  The result being `1` therefore says
  every one of the five arrays is `1` everywhere.  An element of a float test is `|a| < +∞` on the extended reals, which
  rules out both infinities; an element of an integer test is a signed comparison with a constant.
-/
import proofs.«424799_j73358041415911_3_alg».proof.Proof.Gen.Pre_finite_inputs
import proofs.«424799_j73358041415911_3_alg».proof.Proof.Spec
import Idealize.ShloMosaic.PureOps.Ideal
import Idealize.ShloMosaic.Lib.ReduceAll
import Idealize.ShloMosaic.Lib.Affine

noncomputable section

namespace Cert.PreRead

open Cert.Pre_finite_inputs Cert.Pre_finite_inputs.Gen Idealize.ShloMosaic

/-- The rank-0 shape has one index. -/
instance subsingleton_scalar_idx : Subsingleton S_.Idx := ⟨fun a b => funext fun d => d.elim0⟩

/-- The pattern `0x7F800000` is `+∞`. -/
theorem ofBits_inf : Ideal.ofBits .f32 0x7F800000#32 = ⊤ := by simp [Ideal.ofBits, Ideal.ieee]

/-- An extended real whose absolute value `max a (-a)` is strictly below `+∞` is a real number: at `⊥` and at `⊤` the
    absolute value is `⊤`. -/
theorem real_of_abs_lt_top (a : EReal) (h : Ideal.cmp .olt (max a (-a)) ⊤ = 1#1) : ∃ r : ℝ, a = (r : EReal) := by
  induction a using EReal.rec with
  | bot => simp [Ideal.cmp] at h
  | top => simp [Ideal.cmp] at h
  | coe r => exact ⟨r, rfl⟩

/-- One element of a printed float test `|x| < +∞`, the bound a broadcast scalar constant. -/
theorem real_of_elem {s : Shape} (hb : S_.BroadcastsInDim s (![] : Fin 0 → Fin s.rank)) (x : FVec Ideal s .f32) (i : s.Idx)
    (h : cmpf .olt (Host.absf x) (broadcastInDim s ![] hb (constant S_ .f32 0x7F800000#32)) i = 1#1) :
    ∃ r : ℝ, x i = (r : EReal) := by
  apply real_of_abs_lt_top
  rw [← ofBits_inf]
  exact h

/-- One element of a printed integer test `0 ≤ g`, the bound a broadcast scalar constant, compared signed. -/
theorem nonneg_of_elem {s : Shape} (hb : S_.BroadcastsInDim s (![] : Fin 0 → Fin s.rank)) (g : IVec s 32) (i : s.Idx)
    (h : cmpi .sge g (broadcastInDim s ![] hb (constantI S_ 32 0#32)) i = 1#1) : 0 ≤ (g i).toInt := by
  have h' : (0#32 : BitVec 32).toInt ≤ (g i).toInt := IntOp.cmpi_sge.1 h
  have e : (0#32 : BitVec 32).toInt = 0 := by decide
  rw [e] at h'
  exact h'

/-- One element of a printed integer test `g < 16`, the bound a broadcast scalar constant, compared signed. -/
theorem lt_of_elem {s : Shape} (hb : S_.BroadcastsInDim s (![] : Fin 0 → Fin s.rank)) (g : IVec s 32) (i : s.Idx)
    (h : cmpi .slt g (broadcastInDim s ![] hb (constantI S_ 32 16#32)) i = 1#1) : (g i).toInt < 16 := by
  have h' : (g i).toInt < (16#32 : BitVec 32).toInt := IntOp.cmpi_slt.1 h
  have e : (16#32 : BitVec 32).toInt = 16 := by decide
  rw [e] at h'
  exact h'

/-- A conjunction of two one-bit arrays that is `1` at an index: both are. -/
theorem andi_apply_eq_one {s : Shape} (a b : IVec s 1) (j : s.Idx) (h : andi a b j = 1#1) : a j = 1#1 ∧ b j = 1#1 :=
  IntOp.andi_eq_one.1 h

theorem of_pre (x : FVec Ideal S32x128x512 .f32) (g : IVec S32x128x128 32) (w : FVec Ideal S2x512x512 .f32)
    (bias : FVec Ideal S16x512 .f32)
    (h : Cert.Pre_finite_inputs.fn (F := Ideal) x g w bias = fun _ => 1#1) :
    Cert.Spec.AllReal x ∧ Cert.Spec.AllReal w ∧ Cert.Spec.AllReal bias ∧ Cert.Spec.InRange g := by
  have h0 := congrFun h ValueIdx.ix0
  dsimp only [fn, fn_part1] at h0
  obtain ⟨h1, hlt⟩ := andi_apply_eq_one _ _ _ h0
  obtain ⟨h2, hge⟩ := andi_apply_eq_one _ _ _ h1
  obtain ⟨h3, hb⟩ := andi_apply_eq_one _ _ _ h2
  obtain ⟨hx, hw⟩ := andi_apply_eq_one _ _ _ h3
  refine ⟨fun i => ?_, fun i => ?_, fun i => ?_, fun i => ⟨?_, ?_⟩⟩
  · exact real_of_elem _ x i (Host.reduce_andi_all _ _ _ _ _ hx i)
  · exact real_of_elem _ w i (Host.reduce_andi_all _ _ _ _ _ hw i)
  · exact real_of_elem _ bias i (Host.reduce_andi_all _ _ _ _ _ hb i)
  · exact nonneg_of_elem _ g i (Host.reduce_andi_all _ _ _ _ _ hge i)
  · exact lt_of_elem _ g i (Host.reduce_andi_all _ _ _ _ _ hlt i)

end Cert.PreRead

end
-- ==== Proof.KerPay.lean ====
/-
  What the kernel's body stores, read at one entry of its 4 × 128 × 512 output block, over the extended reals.

  With the block's rows numbered r = 128·b + n (four batch items of 128 nodes), the body computes

    out[b, n, o] = (x[b, n, o] + Σ_i x[b, n, i] · W[i, o]) + Σ_l (Σ_j hot[r, j] · K[j, l]) · T[l, o]

  where `hot[r, j]` is one when the clipped label of edge (b, n, j mod 128), read as a number, equals the entry j of the
  block-number row, and zero otherwise; K is the block-indicator table and T the bias table.  The three products are
  plain matrix products into a zero accumulator; the 2048-wide axis is 16 copies of the 128 edges laid side by side.
-/
import proofs.«424799_j73358041415911_3_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.KerPay

open Cert.KernelIdeal Cert.KernelIdeal.Gen Idealize.ShloMosaic Idealize.ShloMosaic.ValueIdx

/-! ## The three matrix products at an entry -/

theorem lhs1_0 (i : S512x512.Idx) (q : dot_S512x512_S512x512_S512x512_1_0_0_1_n_n.contr.Idx) : (dot_S512x512_S512x512_S512x512_1_0_0_1_n_n.lhsIdx i q 0).val = (i 0).val := by
  unfold DotDims.lhsIdx
  rw [dif_neg (show ¬(0 : Fin S512x512.rank) ∈ dot_S512x512_S512x512_S512x512_1_0_0_1_n_n.lhsBatch by decide), dif_pos (show (0 : Fin S512x512.rank) ∈ dot_S512x512_S512x512_S512x512_1_0_0_1_n_n.lhsNonContracting by decide)]
  rfl
theorem lhs1_1 (i : S512x512.Idx) (q : dot_S512x512_S512x512_S512x512_1_0_0_1_n_n.contr.Idx) : (dot_S512x512_S512x512_S512x512_1_0_0_1_n_n.lhsIdx i q 1).val = (q ⟨0, by decide⟩).val :=
  dot_S512x512_S512x512_S512x512_1_0_0_1_n_n.lhsIdx_val_of_single rfl i q
theorem rhs1_0 (i : S512x512.Idx) (q : dot_S512x512_S512x512_S512x512_1_0_0_1_n_n.contr.Idx) : (dot_S512x512_S512x512_S512x512_1_0_0_1_n_n.rhsIdx i q 0).val = (q ⟨0, by decide⟩).val :=
  dot_S512x512_S512x512_S512x512_1_0_0_1_n_n.rhsIdx_val_of_single rfl i q
theorem rhs1_1 (i : S512x512.Idx) (q : dot_S512x512_S512x512_S512x512_1_0_0_1_n_n.contr.Idx) : (dot_S512x512_S512x512_S512x512_1_0_0_1_n_n.rhsIdx i q 1).val = (i 1).val := by
  unfold DotDims.rhsIdx
  rw [dif_neg (show ¬(1 : Fin S512x512.rank) ∈ dot_S512x512_S512x512_S512x512_1_0_0_1_n_n.rhsBatch by decide), dif_pos (show (1 : Fin S512x512.rank) ∈ dot_S512x512_S512x512_S512x512_1_0_0_1_n_n.rhsNonContracting by decide)]
  rfl

/-- The product into a zero accumulator at (p, q): the sum over the 512 contracted positions of row p against column q. -/
theorem mm1_apply (L : FVec Ideal S512x512 .bf16) (R : FVec Ideal S512x512 .bf16) (p : Fin 512) (q : Fin 512) :
    matmul dot_S512x512_S512x512_S512x512_1_0_0_1_n_n none L R (constant (F := Ideal) S512x512 .f32 0x00000000#32) (ix2 p q)
      = ∑ k : Fin 512, L (ix2 p k) * R (ix2 k q) := by
  simp only [matmul]
  rw [Ideal.matmul_constant_zero_apply, ← Equiv.sum_comp (contrEquiv1 dot_S512x512_S512x512_S512x512_1_0_0_1_n_n 512 rfl rfl).symm]
  refine Finset.sum_congr rfl fun k _ => ?_
  have hk := contrEquiv1_symm_val dot_S512x512_S512x512_S512x512_1_0_0_1_n_n 512 rfl rfl k
  have el : dot_S512x512_S512x512_S512x512_1_0_0_1_n_n.lhsIdx (ix2 p q) ((contrEquiv1 dot_S512x512_S512x512_S512x512_1_0_0_1_n_n 512 rfl rfl).symm k) = ix2 p k := funext fun a => Fin.ext (by
    match a with
    | ⟨0, _⟩ => exact lhs1_0 _ _
    | ⟨1, _⟩ => exact (lhs1_1 _ _).trans hk)
  have er : dot_S512x512_S512x512_S512x512_1_0_0_1_n_n.rhsIdx (ix2 p q) ((contrEquiv1 dot_S512x512_S512x512_S512x512_1_0_0_1_n_n 512 rfl rfl).symm k) = ix2 k q := funext fun a => Fin.ext (by
    match a with
    | ⟨0, _⟩ => exact (rhs1_0 _ _).trans hk
    | ⟨1, _⟩ => exact rhs1_1 _ _)
  rw [el, er]

theorem lhs2_0 (i : S512x16.Idx) (q : dot_S512x2048_S2048x16_S512x16_1_0_0_1_n_n.contr.Idx) : (dot_S512x2048_S2048x16_S512x16_1_0_0_1_n_n.lhsIdx i q 0).val = (i 0).val := by
  unfold DotDims.lhsIdx
  rw [dif_neg (show ¬(0 : Fin S512x2048.rank) ∈ dot_S512x2048_S2048x16_S512x16_1_0_0_1_n_n.lhsBatch by decide), dif_pos (show (0 : Fin S512x2048.rank) ∈ dot_S512x2048_S2048x16_S512x16_1_0_0_1_n_n.lhsNonContracting by decide)]
  rfl
theorem lhs2_1 (i : S512x16.Idx) (q : dot_S512x2048_S2048x16_S512x16_1_0_0_1_n_n.contr.Idx) : (dot_S512x2048_S2048x16_S512x16_1_0_0_1_n_n.lhsIdx i q 1).val = (q ⟨0, by decide⟩).val :=
  dot_S512x2048_S2048x16_S512x16_1_0_0_1_n_n.lhsIdx_val_of_single rfl i q
theorem rhs2_0 (i : S512x16.Idx) (q : dot_S512x2048_S2048x16_S512x16_1_0_0_1_n_n.contr.Idx) : (dot_S512x2048_S2048x16_S512x16_1_0_0_1_n_n.rhsIdx i q 0).val = (q ⟨0, by decide⟩).val :=
  dot_S512x2048_S2048x16_S512x16_1_0_0_1_n_n.rhsIdx_val_of_single rfl i q
theorem rhs2_1 (i : S512x16.Idx) (q : dot_S512x2048_S2048x16_S512x16_1_0_0_1_n_n.contr.Idx) : (dot_S512x2048_S2048x16_S512x16_1_0_0_1_n_n.rhsIdx i q 1).val = (i 1).val := by
  unfold DotDims.rhsIdx
  rw [dif_neg (show ¬(1 : Fin S2048x16.rank) ∈ dot_S512x2048_S2048x16_S512x16_1_0_0_1_n_n.rhsBatch by decide), dif_pos (show (1 : Fin S2048x16.rank) ∈ dot_S512x2048_S2048x16_S512x16_1_0_0_1_n_n.rhsNonContracting by decide)]
  rfl

/-- The product into a zero accumulator at (p, q): the sum over the 2048 contracted positions of row p against column q. -/
theorem mm2_apply (L : FVec Ideal S512x2048 .bf16) (R : FVec Ideal S2048x16 .bf16) (p : Fin 512) (q : Fin 16) :
    matmul dot_S512x2048_S2048x16_S512x16_1_0_0_1_n_n none L R (constant (F := Ideal) S512x16 .f32 0x00000000#32) (ix2 p q)
      = ∑ k : Fin 2048, L (ix2 p k) * R (ix2 k q) := by
  simp only [matmul]
  rw [Ideal.matmul_constant_zero_apply, ← Equiv.sum_comp (contrEquiv1 dot_S512x2048_S2048x16_S512x16_1_0_0_1_n_n 2048 rfl rfl).symm]
  refine Finset.sum_congr rfl fun k _ => ?_
  have hk := contrEquiv1_symm_val dot_S512x2048_S2048x16_S512x16_1_0_0_1_n_n 2048 rfl rfl k
  have el : dot_S512x2048_S2048x16_S512x16_1_0_0_1_n_n.lhsIdx (ix2 p q) ((contrEquiv1 dot_S512x2048_S2048x16_S512x16_1_0_0_1_n_n 2048 rfl rfl).symm k) = ix2 p k := funext fun a => Fin.ext (by
    match a with
    | ⟨0, _⟩ => exact lhs2_0 _ _
    | ⟨1, _⟩ => exact (lhs2_1 _ _).trans hk)
  have er : dot_S512x2048_S2048x16_S512x16_1_0_0_1_n_n.rhsIdx (ix2 p q) ((contrEquiv1 dot_S512x2048_S2048x16_S512x16_1_0_0_1_n_n 2048 rfl rfl).symm k) = ix2 k q := funext fun a => Fin.ext (by
    match a with
    | ⟨0, _⟩ => exact (rhs2_0 _ _).trans hk
    | ⟨1, _⟩ => exact rhs2_1 _ _)
  rw [el, er]

theorem lhs3_0 (i : S512x512.Idx) (q : dot_S512x16_S16x512_S512x512_1_0_0_1_n_n.contr.Idx) : (dot_S512x16_S16x512_S512x512_1_0_0_1_n_n.lhsIdx i q 0).val = (i 0).val := by
  unfold DotDims.lhsIdx
  rw [dif_neg (show ¬(0 : Fin S512x16.rank) ∈ dot_S512x16_S16x512_S512x512_1_0_0_1_n_n.lhsBatch by decide), dif_pos (show (0 : Fin S512x16.rank) ∈ dot_S512x16_S16x512_S512x512_1_0_0_1_n_n.lhsNonContracting by decide)]
  rfl
theorem lhs3_1 (i : S512x512.Idx) (q : dot_S512x16_S16x512_S512x512_1_0_0_1_n_n.contr.Idx) : (dot_S512x16_S16x512_S512x512_1_0_0_1_n_n.lhsIdx i q 1).val = (q ⟨0, by decide⟩).val :=
  dot_S512x16_S16x512_S512x512_1_0_0_1_n_n.lhsIdx_val_of_single rfl i q
theorem rhs3_0 (i : S512x512.Idx) (q : dot_S512x16_S16x512_S512x512_1_0_0_1_n_n.contr.Idx) : (dot_S512x16_S16x512_S512x512_1_0_0_1_n_n.rhsIdx i q 0).val = (q ⟨0, by decide⟩).val :=
  dot_S512x16_S16x512_S512x512_1_0_0_1_n_n.rhsIdx_val_of_single rfl i q
theorem rhs3_1 (i : S512x512.Idx) (q : dot_S512x16_S16x512_S512x512_1_0_0_1_n_n.contr.Idx) : (dot_S512x16_S16x512_S512x512_1_0_0_1_n_n.rhsIdx i q 1).val = (i 1).val := by
  unfold DotDims.rhsIdx
  rw [dif_neg (show ¬(1 : Fin S16x512.rank) ∈ dot_S512x16_S16x512_S512x512_1_0_0_1_n_n.rhsBatch by decide), dif_pos (show (1 : Fin S16x512.rank) ∈ dot_S512x16_S16x512_S512x512_1_0_0_1_n_n.rhsNonContracting by decide)]
  rfl

/-- The product into a zero accumulator at (p, q): the sum over the 16 contracted positions of row p against column q. -/
theorem mm3_apply (L : FVec Ideal S512x16 .bf16) (R : FVec Ideal S16x512 .bf16) (p : Fin 512) (q : Fin 512) :
    matmul dot_S512x16_S16x512_S512x512_1_0_0_1_n_n none L R (constant (F := Ideal) S512x512 .f32 0x00000000#32) (ix2 p q)
      = ∑ k : Fin 16, L (ix2 p k) * R (ix2 k q) := by
  simp only [matmul]
  rw [Ideal.matmul_constant_zero_apply, ← Equiv.sum_comp (contrEquiv1 dot_S512x16_S16x512_S512x512_1_0_0_1_n_n 16 rfl rfl).symm]
  refine Finset.sum_congr rfl fun k _ => ?_
  have hk := contrEquiv1_symm_val dot_S512x16_S16x512_S512x512_1_0_0_1_n_n 16 rfl rfl k
  have el : dot_S512x16_S16x512_S512x512_1_0_0_1_n_n.lhsIdx (ix2 p q) ((contrEquiv1 dot_S512x16_S16x512_S512x512_1_0_0_1_n_n 16 rfl rfl).symm k) = ix2 p k := funext fun a => Fin.ext (by
    match a with
    | ⟨0, _⟩ => exact lhs3_0 _ _
    | ⟨1, _⟩ => exact (lhs3_1 _ _).trans hk)
  have er : dot_S512x16_S16x512_S512x512_1_0_0_1_n_n.rhsIdx (ix2 p q) ((contrEquiv1 dot_S512x16_S16x512_S512x512_1_0_0_1_n_n 16 rfl rfl).symm k) = ix2 k q := funext fun a => Fin.ext (by
    match a with
    | ⟨0, _⟩ => exact (rhs3_0 _ _).trans hk
    | ⟨1, _⟩ => exact rhs3_1 _ _)
  rw [el, er]

/-! ## Rows of the block: batch item b, node n ↦ row 128·b + n -/

/-- The row of node n of batch item b. -/
def row (b : Fin 4) (n : Fin 128) : Fin 512 := ⟨b.val * 128 + n.val, by omega⟩

/-- The edge a position of the 2048-wide axis stands for: its remainder modulo 128. -/
def col (j : Fin 2048) : Fin 128 := ⟨j.val % 128, Nat.mod_lt _ (by decide)⟩

variable {α : Type}

/-- Four 128-row items read as one 512-row matrix: row 128·b + n is item b's row n. -/
theorem rows_merge (v : S4x128x512.Idx → α) (h : S4x128x512.ShapeCasts S512x512) (b : Fin 4) (n : Fin 128) (o : Fin 512) :
    shapeCast S512x512 v h (ix2 (row b n) o) = v (ix3 b n o) := by
  refine shapeCast_apply v h _ _ ?_
  rw [Shape.rowMajor_val_three, Shape.rowMajor_val_two]
  rfl

/-- … and back: item b's row n of the 512-row matrix split into four items. -/
theorem rows_split (v : S512x512.Idx → α) (h : S512x512.ShapeCasts S4x128x512) (b : Fin 4) (n : Fin 128) (o : Fin 512) :
    shapeCast S4x128x512 v h (ix3 b n o) = v (ix2 (row b n) o) := by
  refine shapeCast_apply v h _ _ ?_
  rw [Shape.rowMajor_val_three, Shape.rowMajor_val_two]
  rfl

/-- The edge labels likewise: row 128·b + n holds node (b, n)'s 128 edges. -/
theorem edges_merge (v : S4x128x128.Idx → α) (h : S4x128x128.ShapeCasts S512x128) (b : Fin 4) (n : Fin 128) (k : Fin 128) :
    shapeCast S512x128 v h (ix2 (row b n) k) = v (ix3 b n k) := by
  refine shapeCast_apply v h _ _ ?_
  rw [Shape.rowMajor_val_three, Shape.rowMajor_val_two]
  rfl

/-- Sixteen copies of a 128-column matrix side by side: column j is column j mod 128 of the one matrix. -/
theorem sixteen_apply (v : S512x128.Idx → α) (h : Shape.Concatenates (([⟨S512x128, v⟩, ⟨S512x128, v⟩, ⟨S512x128, v⟩, ⟨S512x128, v⟩, ⟨S512x128, v⟩, ⟨S512x128, v⟩, ⟨S512x128, v⟩, ⟨S512x128, v⟩, ⟨S512x128, v⟩, ⟨S512x128, v⟩, ⟨S512x128, v⟩, ⟨S512x128, v⟩, ⟨S512x128, v⟩, ⟨S512x128, v⟩, ⟨S512x128, v⟩, ⟨S512x128, v⟩] : List ((s : Shape) × (s.Idx → α))).map (·.1)) S512x2048 1)
    (p : Fin 512) (j : Fin 2048) :
    concatenate S512x2048 1 [⟨S512x128, v⟩, ⟨S512x128, v⟩, ⟨S512x128, v⟩, ⟨S512x128, v⟩, ⟨S512x128, v⟩, ⟨S512x128, v⟩, ⟨S512x128, v⟩, ⟨S512x128, v⟩, ⟨S512x128, v⟩, ⟨S512x128, v⟩, ⟨S512x128, v⟩, ⟨S512x128, v⟩, ⟨S512x128, v⟩, ⟨S512x128, v⟩, ⟨S512x128, v⟩, ⟨S512x128, v⟩] h (ix2 p j) = v (ix2 p (col j)) := by
  refine concatenate_replicate_apply (t := S512x2048) (s₁ := S512x128) 1 16 v h rfl (ix2 p j) (ix2 p (col j)) ?_ ?_
  · rfl
  · intro b hb
    match b with
    | ⟨0, _⟩ => rfl
    | ⟨1, _⟩ => exact absurd rfl hb

/-! ## The one-hot matrix and the body's result -/

/-- An edge label clipped into the table's rows `0 … 15`. -/
def clip (v : BitVec 32) : BitVec 32 := IntOp.minsi 15#32 (IntOp.maxsi 0#32 v)

/-- One when the clipped label, read as a number, equals `y`; zero otherwise — as the number the body converts the
    comparison's bit to. -/
def hot (v : BitVec 32) (y : EReal) : EReal :=
  ((((Ideal.cmp .oeq (((clip v).toInt : ℝ) : EReal) y).setWidth 32).toInt : ℝ) : EReal)

/-- The linear part of the body: the block's rows against the weight window. -/
def lin (x0 : FVec Ideal S4x128x512 .f32) (x2 : FVec Ideal S512x512 .bf16) : FVec Ideal S4x128x512 .f32 :=
  shapeCast S4x128x512
    (matmul dot_S512x512_S512x512_S512x512_1_0_0_1_n_n none (shapeCast S512x512 (truncf .bf16 x0 bitsLt_bf16_f32) shapeCasts_S4x128x512_S512x512)
      (shapeCast S512x512 x2 shapeCasts_S512x512_S512x512) (constant S512x512 .f32 0x00000000#32))
    shapeCasts_S512x512_S4x128x512

/-- The block's clipped labels as numbers, one row per node: 512 × 128. -/
def labelsf (x1 : IVec S4x128x128 32) : FVec Ideal S512x128 .bf16 :=
  sitofp .bf16 (shapeCast S512x128 (minsi (broadcast S4x128x128 15#32) (maxsi (broadcast S4x128x128 0#32) x1)) shapeCasts_S4x128x128_S512x128)

/-- Those labels laid out sixteen times side by side: 512 × 2048. -/
def wide (x1 : IVec S4x128x128 32) : FVec Ideal S512x2048 .bf16 :=
  concatenate S512x2048 1 [⟨S512x128, labelsf x1⟩, ⟨S512x128, labelsf x1⟩, ⟨S512x128, labelsf x1⟩, ⟨S512x128, labelsf x1⟩, ⟨S512x128, labelsf x1⟩, ⟨S512x128, labelsf x1⟩, ⟨S512x128, labelsf x1⟩, ⟨S512x128, labelsf x1⟩, ⟨S512x128, labelsf x1⟩, ⟨S512x128, labelsf x1⟩, ⟨S512x128, labelsf x1⟩, ⟨S512x128, labelsf x1⟩, ⟨S512x128, labelsf x1⟩, ⟨S512x128, labelsf x1⟩, ⟨S512x128, labelsf x1⟩, ⟨S512x128, labelsf x1⟩] concatenates_S512x128_S512x128_S512x128_S512x128_S512x128_S512x128_S512x128_S512x128_S512x128_S512x128_S512x128_S512x128_S512x128_S512x128_S512x128_S512x128_S512x2048_d1

/-- The block-number row repeated down the 512 rows. -/
def blocknums (x5 : FVec Ideal S1x2048 .bf16) : FVec Ideal S512x2048 .bf16 :=
  broadcastTo S512x2048 (shapeCast S1x2048 (shapeCast S1x2048 x5 shapeCasts_S1x2048_S1x2048) shapeCasts_S1x2048_S1x2048) broadcasts_S1x2048_S512x2048

/-- The one-hot matrix: per row of the block, 16 copies of its 128 labels tested against the block-number row. -/
def onehot (x1 : IVec S4x128x128 32) (x5 : FVec Ideal S1x2048 .bf16) : FVec Ideal S512x2048 .bf16 :=
  truncf .bf16 (sitofp .f32 (extui 32 (cmpf .oeq (wide x1) (blocknums x5)) natLt_1_32)) bitsLt_bf16_f32

/-- The edge part of the body: the one-hot matrix against the block indicator gives per-label counts; those against the bias table. -/
def edge (x1 : IVec S4x128x128 32) (x5 : FVec Ideal S1x2048 .bf16) (x3 : FVec Ideal S2048x16 .bf16) (x4 : FVec Ideal S16x512 .bf16) :
    FVec Ideal S4x128x512 .f32 :=
  shapeCast S4x128x512
    (matmul dot_S512x16_S16x512_S512x512_1_0_0_1_n_n none
      (truncf .bf16 (matmul dot_S512x2048_S2048x16_S512x16_1_0_0_1_n_n none (onehot x1 x5) (shapeCast S2048x16 x3 shapeCasts_S2048x16_S2048x16) (constant S512x16 .f32 0x00000000#32)) bitsLt_bf16_f32)
      (shapeCast S16x512 x4 shapeCasts_S16x512_S16x512) (constant S512x512 .f32 0x00000000#32))
    shapeCasts_S512x512_S4x128x512

/-- The body's stored value is the block plus its linear part plus its edge part. -/
theorem pay_eq (x0 : FVec Ideal S4x128x512 .f32) (x2 : FVec Ideal S512x512 .bf16) (x1 : IVec S4x128x128 32)
    (x5 : FVec Ideal S1x2048 .bf16) (x3 : FVec Ideal S2048x16 .bf16) (x4 : FVec Ideal S16x512 .bf16) :
    k0_pay1 (F := Ideal) x0 x2 x1 x5 x3 x4 = addf (addf x0 (lin x0 x2)) (edge x1 x5 x3 x4) := rfl

theorem lin_apply (x0 : FVec Ideal S4x128x512 .f32) (x2 : FVec Ideal S512x512 .bf16) (b : Fin 4) (n : Fin 128) (o : Fin 512) :
    lin x0 x2 (ix3 b n o) = ∑ i : Fin 512, x0 (ix3 b n i) * x2 (ix2 i o) := by
  unfold lin
  rw [rows_split, mm1_apply]
  refine Finset.sum_congr rfl fun i _ => ?_
  rw [rows_merge, shapeCast_self]
  rfl

theorem labelsf_apply (x1 : IVec S4x128x128 32) (b : Fin 4) (n : Fin 128) (k : Fin 128) :
    labelsf x1 (ix2 (row b n) k) = (((clip (x1 (ix3 b n k))).toInt : ℝ) : EReal) := by
  unfold labelsf
  rw [sitofp_apply, edges_merge]
  rfl

theorem wide_apply (x1 : IVec S4x128x128 32) (b : Fin 4) (n : Fin 128) (j : Fin 2048) :
    wide x1 (ix2 (row b n) j) = (((clip (x1 (ix3 b n (col j)))).toInt : ℝ) : EReal) := by
  unfold wide
  rw [sixteen_apply, labelsf_apply]

theorem blocknums_apply (x5 : FVec Ideal S1x2048 .bf16) (p : Fin 512) (j : Fin 2048) :
    blocknums x5 (ix2 p j) = x5 (ix2 (0 : Fin 1) j) := by
  unfold blocknums
  rw [broadcastTo_1b_ab_apply, shapeCast_self, shapeCast_self]

theorem onehot_apply (x1 : IVec S4x128x128 32) (x5 : FVec Ideal S1x2048 .bf16) (b : Fin 4) (n : Fin 128) (j : Fin 2048) :
    onehot x1 x5 (ix2 (row b n) j) = hot (x1 (ix3 b n (col j))) (x5 (ix2 (0 : Fin 1) j)) := by
  show ((((Ideal.cmp .oeq (wide x1 (ix2 (row b n) j)) (blocknums x5 (ix2 (row b n) j))).setWidth 32).toInt : ℝ) : EReal) = _
  rw [wide_apply, blocknums_apply]
  rfl

theorem edge_apply (x1 : IVec S4x128x128 32) (x5 : FVec Ideal S1x2048 .bf16) (x3 : FVec Ideal S2048x16 .bf16) (x4 : FVec Ideal S16x512 .bf16)
    (b : Fin 4) (n : Fin 128) (o : Fin 512) :
    edge x1 x5 x3 x4 (ix3 b n o)
      = ∑ l : Fin 16, (∑ j : Fin 2048, hot (x1 (ix3 b n (col j))) (x5 (ix2 (0 : Fin 1) j)) * x3 (ix2 j l)) * x4 (ix2 l o) := by
  unfold edge
  rw [rows_split, mm3_apply]
  refine Finset.sum_congr rfl fun l _ => ?_
  rw [truncf_apply, mm2_apply, shapeCast_self x4]
  refine congrArg (· * x4 (ix2 l o)) (Finset.sum_congr rfl fun j _ => ?_)
  rw [onehot_apply, shapeCast_self]

/-- THE BODY'S RESULT AT AN ENTRY. -/
theorem pay_apply (x0 : FVec Ideal S4x128x512 .f32) (x2 : FVec Ideal S512x512 .bf16) (x1 : IVec S4x128x128 32)
    (x5 : FVec Ideal S1x2048 .bf16) (x3 : FVec Ideal S2048x16 .bf16) (x4 : FVec Ideal S16x512 .bf16)
    (b : Fin 4) (n : Fin 128) (o : Fin 512) :
    k0_pay1 (F := Ideal) x0 x2 x1 x5 x3 x4 (ix3 b n o)
      = (x0 (ix3 b n o) + ∑ i : Fin 512, x0 (ix3 b n i) * x2 (ix2 i o))
        + ∑ l : Fin 16, (∑ j : Fin 2048, hot (x1 (ix3 b n (col j))) (x5 (ix2 (0 : Fin 1) j)) * x3 (ix2 j l)) * x4 (ix2 l o) := by
  rw [pay_eq]
  show (x0 (ix3 b n o) + lin x0 x2 (ix3 b n o)) + edge x1 x5 x3 x4 (ix3 b n o) = _
  rw [lin_apply, edge_apply]

end Cert.KernelIdeal.KerPay

end
-- ==== Proof.Hist.lean ====
/-
  Counting labels, then weighting the counts, is summing the weights of the labels.

  Lay the 128 edges of a node out 16 times side by side (position j = 128·q + k stands for edge k, tested against label
  q).  The entry at j is one exactly when edge k carries label q; summing the entries whose block q is l counts the
  edges labelled l; and the counts against a table T of real numbers give Σ_k T(label k):

    Σ_l (Σ_j [label(j mod 128) = j div 128] · [j div 128 = l]) · T l  =  Σ_k T (label k).

  The table's entries must be real: the left side multiplies a count by an entry, the right adds the entry that many
  times, and on the extended reals those agree for an infinite entry only when no other label carries the opposite
  infinity.
-/
import Idealize.ShloMosaic.PureOps.Ideal
import Mathlib.Data.EReal.Basic
import Mathlib.Data.Fintype.BigOperators
import Mathlib.Logic.Equiv.Fin.Basic
import Mathlib.Algebra.BigOperators.Ring.Finset
import Mathlib.Algebra.BigOperators.Group.Finset.Piecewise
import Mathlib.Algebra.BigOperators.Group.Finset.Sigma

noncomputable section

namespace Cert.Hist

/-- The inclusion of the reals in the extended reals is additive, so it commutes with finite sums. -/
theorem coe_sum {ι : Type} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

/-- An indicator is the same number in the reals and in the extended reals. -/
theorem coe_ind (c : Prop) [Decidable c] : (((if c then (1 : ℝ) else 0) : ℝ) : EReal) = if c then (1 : EReal) else 0 := by
  split_ifs <;> rfl

/-- A sum over the 2048 positions, taken block by block: position `k + 128·q` is edge `k` of block `q`. -/
theorem sum_blocks (f : ℕ → ℝ) : ∑ j : Fin 2048, f j.val = ∑ q : Fin 16, ∑ k : Fin 128, f (k.val + 128 * q.val) := by
  rw [← Fintype.sum_prod_type' (fun (q : Fin 16) (k : Fin 128) => f (k.val + 128 * q.val))]
  exact (Equiv.sum_comp (finProdFinEquiv : Fin 16 × Fin 128 ≃ Fin 2048) (fun j => f j.val)).symm

/-- The entry at position `k + 128·q`, weighted by the test "block is `l`": it is one exactly when `q = l` and edge
    `k` carries label `l`. -/
theorem entry (lbl : Fin 128 → Fin 16) (l q : Fin 16) (k : Fin 128) :
    (if (lbl ⟨(k.val + 128 * q.val) % 128, Nat.mod_lt _ (by decide)⟩).val = (k.val + 128 * q.val) / 128 then (1 : ℝ) else 0)
        * (if (k.val + 128 * q.val) / 128 = l.val then (1 : ℝ) else 0)
      = if q = l then (if lbl k = l then (1 : ℝ) else 0) else 0 := by
  have hd : (k.val + 128 * q.val) / 128 = q.val := by have := k.isLt; omega
  have hm : (⟨(k.val + 128 * q.val) % 128, Nat.mod_lt _ (by decide)⟩ : Fin 128) = k := by
    apply Fin.ext
    show (k.val + 128 * q.val) % 128 = k.val
    have := k.isLt
    omega
  rw [hm, hd]
  by_cases hq : q = l
  · subst hq
    simp [Fin.val_inj]
  · have hv : q.val ≠ l.val := fun h => hq (Fin.ext h)
    simp [hq, hv]

/-- Summing the entries of block `l` counts the edges labelled `l`. -/
theorem count (lbl : Fin 128 → Fin 16) (l : Fin 16) :
    (∑ j : Fin 2048,
        (if (lbl ⟨j.val % 128, Nat.mod_lt _ (by decide)⟩).val = j.val / 128 then (1 : ℝ) else 0)
          * (if j.val / 128 = l.val then (1 : ℝ) else 0))
      = ∑ k : Fin 128, if lbl k = l then (1 : ℝ) else 0 := by
  rw [sum_blocks (fun n => (if (lbl ⟨n % 128, Nat.mod_lt _ (by decide)⟩).val = n / 128 then (1 : ℝ) else 0)
          * (if n / 128 = l.val then (1 : ℝ) else 0))]
  refine (Finset.sum_congr rfl fun q _ => Finset.sum_congr rfl fun k _ => entry lbl l q k).trans ?_
  rw [Finset.sum_comm]
  refine Finset.sum_congr rfl fun k _ => ?_
  rw [Finset.sum_ite_eq']
  simp

/-- The identity over a table of real numbers. -/
theorem hist_real (lbl : Fin 128 → Fin 16) (r : Fin 16 → ℝ) :
    ∑ l : Fin 16, (∑ j : Fin 2048,
        (if (lbl ⟨j.val % 128, Nat.mod_lt _ (by decide)⟩).val = j.val / 128 then (1 : ℝ) else 0)
          * (if j.val / 128 = l.val then (1 : ℝ) else 0)) * r l
      = ∑ k : Fin 128, r (lbl k) := by
  simp only [count, Finset.sum_mul]
  rw [Finset.sum_comm]
  refine Finset.sum_congr rfl fun k _ => ?_
  simp only [ite_mul, one_mul, zero_mul]
  rw [Finset.sum_ite_eq]
  simp

theorem hist (lbl : Fin 128 → Fin 16) (T : Fin 16 → EReal) (hT : ∀ l, ∃ r : ℝ, T l = (r : EReal)) :
    ∑ l : Fin 16, (∑ j : Fin 2048,
        (if (lbl ⟨j.val % 128, Nat.mod_lt _ (by decide)⟩).val = j.val / 128 then (1 : EReal) else 0)
          * (if j.val / 128 = l.val then (1 : EReal) else 0)) * T l
      = ∑ k : Fin 128, T (lbl k) := by
  choose r hr using hT
  have key := congrArg Real.toEReal (hist_real lbl r)
  simp only [coe_sum, EReal.coe_mul, coe_ind] at key
  simp only [hr]
  exact key

end Cert.Hist

end
-- ==== Proof.EdgeSum.lean ====
/-
  The kernel's edge term is the specification's: per label, the count of a node's edges carrying it, against a table
  of real numbers, is the sum over the node's edges of the table at each edge's label.

  The kernel's one-hot entry compares the clipped label, read as a number, with a block number q; on a label already
  inside `0 … 15` clipping does nothing, the numbers are equal exactly when the label is q, and the comparison's bit
  widened and read back as a number is one or zero accordingly.
-/
import proofs.«424799_j73358041415911_3_alg».proof.Proof.KerPay
import proofs.«424799_j73358041415911_3_alg».proof.Proof.Hist
import proofs.«424799_j73358041415911_3_alg».proof.Proof.Spec

noncomputable section

namespace Cert.EdgeSum

open Cert.KernelIdeal.KerPay Idealize.ShloMosaic

/-- Clipping into `0 … 15` leaves a word already there as it is. -/
theorem clip_eq (v : BitVec 32) (h0 : 0 ≤ v.toInt) (h1 : v.toInt < 16) : clip v = v := by
  have e0 : (0#32 : BitVec 32).toInt = 0 := by decide
  have e15 : (15#32 : BitVec 32).toInt = 15 := by decide
  have a : IntOp.maxsi 0#32 v = v := by
    unfold IntOp.maxsi
    exact if_neg (by rw [BitVec.slt_iff_toInt_lt, e0]; omega)
  have b : IntOp.minsi 15#32 v = v := by
    unfold IntOp.minsi
    exact if_neg (by rw [BitVec.slt_iff_toInt_lt, e15]; omega)
  unfold clip
  rw [a, b]

/-- An in-range word read as a number equals the number `q` exactly when its label is `q`. -/
theorem coe_eq_iff (v : BitVec 32) (h0 : 0 ≤ v.toInt) (h1 : v.toInt < 16) (q : ℕ) :
    (((v.toInt : ℝ) : EReal) = (((q : ℕ) : ℝ) : EReal)) ↔ (Cert.Spec.lab v).val = q := by
  have hl := Cert.Spec.lab_val_of_inRange h0 h1
  rw [EReal.coe_eq_coe_iff, ← hl]
  constructor
  · intro h
    exact_mod_cast h
  · intro h
    exact_mod_cast h

/-- The one-hot entry of an in-range label against block number q: one when the label is q, else zero. -/
theorem hot_eq (v : BitVec 32) (h0 : 0 ≤ v.toInt) (h1 : v.toInt < 16) (q : ℕ) :
    hot v (((q : ℕ) : ℝ) : EReal) = if (Cert.Spec.lab v).val = q then (1 : EReal) else 0 := by
  unfold hot
  rw [clip_eq v h0 h1]
  have key : Ideal.cmp .oeq ((v.toInt : ℝ) : EReal) (((q : ℕ) : ℝ) : EReal)
      = BitVec.ofBool (decide ((Cert.Spec.lab v).val = q)) := by
    show BitVec.ofBool (decide (((v.toInt : ℝ) : EReal) = (((q : ℕ) : ℝ) : EReal))) = _
    exact congrArg BitVec.ofBool (decide_eq_decide.2 (coe_eq_iff v h0 h1 q))
  rw [key]
  by_cases hq : (Cert.Spec.lab v).val = q
  · have e : ((BitVec.ofBool true).setWidth 32).toInt = 1 := by decide
    rw [if_pos hq, decide_eq_true hq, e]
    simp
  · have e : ((BitVec.ofBool false).setWidth 32).toInt = 0 := by decide
    rw [if_neg hq, decide_eq_false hq, e]
    simp

/-- The edge term: counts against the table are the table summed over the edges' labels. -/
theorem edge_sum (g : Fin 128 → BitVec 32) (hg : ∀ k, 0 ≤ (g k).toInt ∧ (g k).toInt < 16)
    (T : Fin 16 → EReal) (hT : ∀ l, ∃ r : ℝ, T l = (r : EReal)) :
    ∑ l : Fin 16, (∑ j : Fin 2048, hot (g (col j)) (((j.val / 128 : ℕ) : ℝ) : EReal)
        * (if j.val / 128 = l.val then (1 : EReal) else 0)) * T l
      = ∑ k : Fin 128, T (Cert.Spec.lab (g k)) := by
  refine (Finset.sum_congr rfl fun l _ => congrArg (· * T l) (Finset.sum_congr rfl fun j _ => ?_)).trans
    (Cert.Hist.hist (fun k => Cert.Spec.lab (g k)) T hT)
  rw [hot_eq (g (col j)) (hg _).1 (hg _).2 (j.val / 128)]
  rfl

end Cert.EdgeSum

end
-- ==== Proof.KerHost.lean ====
/-
  The four arrays the kernel's host program computes before the launch, read at an index over the extended reals:
  the two directions' weights added and transposed; the indicator of "position j of the 2048-wide axis lies in the
  l-th block of 128"; the bias table; and the row of block numbers.
-/
import proofs.«424799_j73358041415911_3_alg».proof.Proof.Gen.KernelIdeal.Frame
import proofs.«424799_j73358041415911_3_alg».proof.Proof.Spec
import Idealize.ShloMosaic.PureOps.Ideal.Laws
import Idealize.ShloMosaic.Lib.ValueIdx
import Idealize.ShloMosaic.Lib.Pipeline.Value
import Idealize.ShloMosaic.Lib.ValueLayout
import Idealize.ShloMosaic.Lib.IdealHost
import Idealize.ShloMosaic.Lib.StableHlo.Run
import Idealize.ShloMosaic.Lib.StableHlo.Predicate

noncomputable section

namespace Cert.KernelIdeal.KerHost

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ)

/-- The weights as launched: direction × out × in. -/
abbrev warr (c : Dev nD) : S2x512x512.Idx → EReal := m ((c : Thread nD τ).loc main_arg2)
/-- The bias table as launched: label × features. -/
abbrev barr (c : Dev nD) : S16x512.Idx → EReal := m ((c : Thread nD τ).loc main_arg3)
/-- The weight window's array as the launch finds it: in × out. -/
abbrev wfold (c : Dev nD) : S512x512.Idx → EReal := V m c main_v2
/-- The block-indicator window's array as the launch finds it: position × label. -/
abbrev blockind (c : Dev nD) : S2048x16.Idx → EReal := V m c main_v14
/-- The bias window's array as the launch finds it. -/
abbrev biasw (c : Dev nD) : S16x512.Idx → EReal := V m c main_v15
/-- The block-number row as the launch finds it: 1 × position. -/
abbrev blockrow (c : Dev nD) : S1x2048.Idx → EReal := V m c main_v7

/-! ## Each array as the term of the operations that computed it -/

/-- The weight window's array, named by the operations that computed it: the weights added over the direction axis
    from zero, transposed, and the format change. -/
theorem wfold_eq (c : Dev nD) : wfold m c =
    (truncf .bf16 (transpose S512x512 [1, 0] (Host.reduceAdd (F := Ideal) (warr m c) (constant (F := Ideal) S_ .f32 0x00000000#32) Facts₀.reducesTo_S2x512x512_S512x512_d0 Facts₀.h_S_) Facts₀.transposes_S512x512_S512x512_1_0) Facts₀.bitsLt_bf16_f32 : S512x512.Idx → EReal) := by
  dsimp only [wfold, Gen.V, Gen.hostOps0]
  after_results

/-- The bias window's array, named by its one operation: the format change of the bias table. -/
theorem biasw_eq (c : Dev nD) : biasw m c =
    (truncf (F := Ideal) .bf16 (barr m c : FVec Ideal S16x512 .f32) Facts₀.bitsLt_bf16_f32 : FVec Ideal S16x512 .bf16) := by
  dsimp only [biasw, Gen.V, Gen.hostOps0]
  after_results

/-- The block numbers as words: the 16 × 128 rectangle whose row r is constantly r, flattened. -/
abbrev blkw : IVec S2048 32 :=
  shapeCast S2048 (broadcastInDim S16x128 ![0] Facts₀.bcast_S16_S16x128_0 (iotaInDim S16 32 0)) Facts₀.shapeCasts_S16x128_S2048

/-- The block-number row, named by its operations: the block-number words as numbers, laid as one row. -/
theorem blockrow_eq (c : Dev nD) : blockrow m c =
    (shapeCast S1x2048 (sitofp (F := Ideal) .bf16 blkw : FVec Ideal S2048 .bf16) Facts₀.shapeCasts_S2048_S1x2048 : S1x2048.Idx → EReal) := by
  dsimp only [blockrow, Gen.V, Gen.hostOps0]
  after_results
  rfl

/-- The block indicator, named by its operations: the block-number words down the rows against the labels 0 … 15 along
    the columns, compared for equality, the bit as a number. -/
theorem blockind_eq (c : Dev nD) : blockind m c =
    (uitofp (F := Ideal) .bf16 (cmpi .eq
      (broadcastInDim S2048x16 ![0, 1] Facts₀.bcast_S2048x1_S2048x16_0_1 (broadcastInDim S2048x1 ![0] Facts₀.bcast_S2048_S2048x1_0 blkw))
      (broadcastInDim S2048x16 ![0, 1] Facts₀.bcast_S1x16_S2048x16_0_1 (broadcastInDim S1x16 ![1] Facts₀.bcast_S16_S1x16_1 (iotaInDim S16 32 0)))) : FVec Ideal S2048x16 .bf16) := by
  dsimp only [blockind, Gen.V, Gen.hostOps0]
  after_results
  rfl

/-! ## The terms read at an index -/

/-- The block-number word at position j is the word of j / 128. -/
theorem blkw_apply (j : Fin 2048) : blkw (ix1 j) = BitVec.ofNat 32 (j.val / 128) := by
  have hj := j.isLt
  refine (shapeCast_apply _ Facts₀.shapeCasts_S16x128_S2048 (ix1 j)
    (ix2 (⟨j.val / 128, by omega⟩ : Fin 16) (⟨j.val % 128, by omega⟩ : Fin 128)) ?_).trans ?_
  · rw [Shape.rowMajor_val_two, Shape.rowMajor_val_one]
    show j.val / 128 * 128 + j.val % 128 = j.val
    omega
  · refine (broadcastInDim_apply _ Facts₀.bcast_S16_S16x128_0 _ _ (ix1 (⟨j.val / 128, by omega⟩ : Fin 16)) ?_).trans ?_
    · intro a
      match a with
      | ⟨0, _⟩ => rfl
    · rfl

/-- The weight window's array at (in, out): the two directions' weights at (out, in), added. -/
theorem wfold_apply (c : Dev nD) (i o : Fin 512) :
    wfold m c (ix2 i o) = ∑ d : Fin 2, warr m c (ix3 d o i) := by
  rw [wfold_eq]
  refine (truncf_apply _ Facts₀.bitsLt_bf16_f32 (ix2 i o)).trans ?_
  refine (transpose_ix2_apply _ Facts₀.transposes_S512x512_S512x512_1_0 i o).trans ?_
  refine (hostReduceAdd_apply _ _ Facts₀.reducesTo_S2x512x512_S512x512_d0 Facts₀.h_S_ (ix2 o i)).trans ?_
  refine (Ideal.hostReduceAdd_single Facts₀.reducesTo_S2x512x512_S512x512_d0
    (by decide : S2x512x512.Reduces [0] S512x512) _ _ (ix2 o i)).trans ?_
  rw [constant_apply, Ideal.ofBits_zero_f32, zero_add]
  refine Finset.sum_congr rfl fun d _ => congrArg _ (funext fun a => ?_)
  match a with
  | ⟨0, _⟩ => rfl
  | ⟨1, _⟩ => rfl
  | ⟨2, _⟩ => rfl

/-- The block indicator at (j, l): one when position j lies in block l of 128, else zero. -/
theorem blockind_apply (c : Dev nD) (j : Fin 2048) (l : Fin 16) :
    blockind m c (ix2 j l) = if j.val / 128 = l.val then (1 : EReal) else 0 := by
  have hj := j.isLt
  have hl := l.isLt
  rw [blockind_eq]
  have hA : broadcastInDim S2048x16 ![0, 1] Facts₀.bcast_S2048x1_S2048x16_0_1
      (broadcastInDim S2048x1 ![0] Facts₀.bcast_S2048_S2048x1_0 blkw) (ix2 j l) = BitVec.ofNat 32 (j.val / 128) := by
    refine (broadcastInDim_apply _ Facts₀.bcast_S2048x1_S2048x16_0_1 _ (ix2 j l) (ix2 j (0 : Fin 1)) ?_).trans ?_
    · intro a
      match a with
      | ⟨0, _⟩ => rfl
      | ⟨1, _⟩ => rfl
    · refine (broadcastInDim_apply _ Facts₀.bcast_S2048_S2048x1_0 _ (ix2 j (0 : Fin 1)) (ix1 j) ?_).trans (blkw_apply j)
      intro a
      match a with
      | ⟨0, _⟩ => rfl
  have hB : broadcastInDim S2048x16 ![0, 1] Facts₀.bcast_S1x16_S2048x16_0_1
      (broadcastInDim S1x16 ![1] Facts₀.bcast_S16_S1x16_1 (iotaInDim S16 32 0)) (ix2 j l) = BitVec.ofNat 32 l.val := by
    refine (broadcastInDim_apply _ Facts₀.bcast_S1x16_S2048x16_0_1 _ (ix2 j l) (ix2 (0 : Fin 1) l) ?_).trans ?_
    · intro a
      match a with
      | ⟨0, _⟩ => rfl
      | ⟨1, _⟩ => rfl
    · refine (broadcastInDim_apply _ Facts₀.bcast_S16_S1x16_1 _ (ix2 (0 : Fin 1) l) (ix1 l) ?_).trans rfl
      intro a
      match a with
      | ⟨0, _⟩ => rfl
  show (((IntOp.cmpi .eq (broadcastInDim S2048x16 ![0, 1] Facts₀.bcast_S2048x1_S2048x16_0_1
      (broadcastInDim S2048x1 ![0] Facts₀.bcast_S2048_S2048x1_0 blkw) (ix2 j l))
      (broadcastInDim S2048x16 ![0, 1] Facts₀.bcast_S1x16_S2048x16_0_1
      (broadcastInDim S1x16 ![1] Facts₀.bcast_S16_S1x16_1 (iotaInDim S16 32 0)) (ix2 j l))).toNat : ℝ) : EReal) = _
  rw [hA, hB]
  by_cases h : j.val / 128 = l.val
  · rw [if_pos h, StableHlo.Predicate.cmpi_eq_iff.mpr (by rw [h])]
    simp
  · rw [if_neg h]
    have hne : IntOp.cmpi .eq (BitVec.ofNat 32 (j.val / 128)) (BitVec.ofNat 32 l.val) ≠ 1#1 := by
      intro h1
      have h2 := congrArg BitVec.toNat (StableHlo.Predicate.cmpi_eq_iff.mp h1)
      rw [BitVec.toNat_ofNat, BitVec.toNat_ofNat, Nat.mod_eq_of_lt (by omega), Nat.mod_eq_of_lt (by omega)] at h2
      exact h h2
    rw [eq_zero_of_ne_one hne]
    simp

/-- The bias window's array is the bias table. -/
theorem biasw_apply (c : Dev nD) (l : Fin 16) (o : Fin 512) :
    biasw m c (ix2 l o) = barr m c (ix2 l o) := by
  rw [biasw_eq]
  rfl

/-- The row of block numbers at j: the number of j's block of 128. -/
theorem blockrow_apply (c : Dev nD) (j : Fin 2048) :
    blockrow m c (ix2 (0 : Fin 1) j) = (((j.val / 128 : ℕ) : ℝ) : EReal) := by
  have hj := j.isLt
  rw [blockrow_eq]
  refine (shapeCast_a_1a_apply _ Facts₀.shapeCasts_S2048_S1x2048 (0 : Fin 1) j).trans ?_
  show (((blkw (ix1 j)).toInt : ℝ) : EReal) = _
  rw [blkw_apply, StableHlo.Predicate.toInt_ofNat_small _ (by omega), Int.cast_natCast]

end Cert.KernelIdeal.KerHost

end
-- ==== Proof.KerBlocks.lean ====
/-
  From what each grid point writes back to the whole output array.

  The grid has 8 points; point t stages batch items 4t … 4t+3 of the features and of the edge labels, the four
  host-computed tables whole, and writes back batch items 4t … 4t+3 of the output.  So entry (b', n, o) of point t's
  block is entry (4t + b', n, o) of the array, the 8 blocks tile the array, and the array after the run is ONE function
  `K` of the argument arrays: at (b, n, o), the features' entry, plus the features' row against the summed weights,
  plus — per label l — the number of the node's edges whose clipped label is l, times the bias table's entry (l, o).
-/
import proofs.«424799_j73358041415911_3_alg».proof.Proof.Gen.KernelIdeal.Value
import proofs.«424799_j73358041415911_3_alg».proof.Proof.KerPay
import proofs.«424799_j73358041415911_3_alg».proof.Proof.KerHost
import Idealize.ShloMosaic.Lib.Pipeline.Value

noncomputable section

namespace Cert.KernelIdeal.KerValue

open Cert.KernelIdeal Cert.KernelIdeal.Gen Cert.KernelIdeal.KerPay Cert.KernelIdeal.KerHost
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The features as launched. -/
abbrev xarr (c : Dev nD) : S32x128x512.Idx → EReal := m ((c : Thread nD τ).loc main_arg0)
/-- The edge labels as launched. -/
abbrev garr (c : Dev nD) : IVec S32x128x128 32 := m ((c : Thread nD τ).loc main_arg1)

/-- Batch item b' of grid point t's block is batch item 4t + b' of the array. -/
def item (t : Fin cfg0.N) (b' : Fin 4) : Fin 32 :=
  ⟨t.val * 4 + b'.val, by have h : t.val < 8 := lt_of_lt_of_eq t.isLt N_0; omega⟩

/-- The output array's entry (b, n, o). -/
def Kat (c : Dev nD) (b : Fin 32) (n : Fin 128) (o : Fin 512) : EReal :=
  (xarr m c (ix3 b n o) + ∑ i : Fin 512, xarr m c (ix3 b n i) * ∑ d : Fin 2, warr m c (ix3 d o i))
    + ∑ l : Fin 16, (∑ j : Fin 2048, hot (garr m c (ix3 b n (col j))) (((j.val / 128 : ℕ) : ℝ) : EReal)
        * (if j.val / 128 = l.val then (1 : EReal) else 0)) * barr m c (ix2 l o)

/-- The output array. -/
def K (c : Dev nD) : S32x128x512.Idx → EReal := fun i => Kat m c (i 0) (i 1) (i 2)

/-! ## The windows' blocks, read where the array says -/

abbrev xblk (c : Dev nD) (t : Fin cfg0.N) : FVec Ideal S4x128x512 .f32 := iblk m c 0 t
abbrev gblk (c : Dev nD) (t : Fin cfg0.N) : IVec S4x128x128 32 := iblk m c 1 t
abbrev wblk (c : Dev nD) (t : Fin cfg0.N) : FVec Ideal S512x512 .bf16 := iblk m c 2 t
abbrev kblk (c : Dev nD) (t : Fin cfg0.N) : FVec Ideal S2048x16 .bf16 := iblk m c 3 t
abbrev bblk (c : Dev nD) (t : Fin cfg0.N) : FVec Ideal S16x512 .bf16 := iblk m c 4 t
abbrev rblk (c : Dev nD) (t : Fin cfg0.N) : FVec Ideal S1x2048 .bf16 := iblk m c 5 t

/-- The printed index maps over the grid: the features', the labels' and the output's blocks move with the point along
    the batch axis; the four tables' one block stays. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 3) = t.val ∧ win0_6.index t (1 : Fin 3) = 0 ∧ win0_6.index t (2 : Fin 3) = 0 :=
  (by decide +kernel : ∀ t : Fin grid0.N, _)

theorem xblk_apply (c : Dev nD) (t : Fin cfg0.N) (b' : Fin 4) (n : Fin 128) (i : Fin 512) :
    xblk m c t (ix3 b' n i) = xarr m c (ix3 (item t b') n i) := by
  show V m c main_arg0 (((cfg0.win 0).blk t).view.emb (ix3 b' n i)) = _
  rw [V_main_arg0 m c]
  refine congrArg (m ((c : Thread nD τ).loc main_arg0)) (funext fun a => Fin.ext ?_)
  obtain ⟨e0, e1, e2, -⟩ := idx_facts t
  match a with
  | ⟨0, _⟩ => show win0_0.index t (0 : Fin 3) * 4 + 1 * b'.val = t.val * 4 + b'.val; omega
  | ⟨1, _⟩ => show win0_0.index t (1 : Fin 3) * 128 + 1 * n.val = n.val; omega
  | ⟨2, _⟩ => show win0_0.index t (2 : Fin 3) * 512 + 1 * i.val = i.val; omega

theorem gblk_apply (c : Dev nD) (t : Fin cfg0.N) (b' : Fin 4) (n : Fin 128) (k : Fin 128) :
    gblk m c t (ix3 b' n k) = garr m c (ix3 (item t b') n k) := by
  show V m c main_arg1 (((cfg0.win 1).blk t).view.emb (ix3 b' n k)) = _
  rw [V_main_arg1 m c]
  refine congrArg (m ((c : Thread nD τ).loc main_arg1)) (funext fun a => Fin.ext ?_)
  obtain ⟨-, -, -, e0, e1, e2, -⟩ := idx_facts t
  match a with
  | ⟨0, _⟩ => show win0_1.index t (0 : Fin 3) * 4 + 1 * b'.val = t.val * 4 + b'.val; omega
  | ⟨1, _⟩ => show win0_1.index t (1 : Fin 3) * 128 + 1 * n.val = n.val; omega
  | ⟨2, _⟩ => show win0_1.index t (2 : Fin 3) * 128 + 1 * k.val = k.val; omega

theorem wblk_apply (c : Dev nD) (t : Fin cfg0.N) (i o : Fin 512) : wblk m c t (ix2 i o) = wfold m c (ix2 i o) := by
  show V m c main_v2 (((cfg0.win 2).blk t).view.emb (ix2 i o)) = V m c main_v2 (ix2 i o)
  refine congrArg (V m c main_v2) (funext fun a => Fin.ext ?_)
  obtain ⟨-, -, -, -, -, -, e0, e1, -⟩ := idx_facts t
  match a with
  | ⟨0, _⟩ => show win0_2.index t (0 : Fin 2) * 512 + 1 * i.val = i.val; omega
  | ⟨1, _⟩ => show win0_2.index t (1 : Fin 2) * 512 + 1 * o.val = o.val; omega

theorem kblk_apply (c : Dev nD) (t : Fin cfg0.N) (j : Fin 2048) (l : Fin 16) : kblk m c t (ix2 j l) = blockind m c (ix2 j l) := by
  show V m c main_v14 (((cfg0.win 3).blk t).view.emb (ix2 j l)) = V m c main_v14 (ix2 j l)
  refine congrArg (V m c main_v14) (funext fun a => Fin.ext ?_)
  obtain ⟨-, -, -, -, -, -, -, -, e0, e1, -⟩ := idx_facts t
  match a with
  | ⟨0, _⟩ => show win0_3.index t (0 : Fin 2) * 2048 + 1 * j.val = j.val; omega
  | ⟨1, _⟩ => show win0_3.index t (1 : Fin 2) * 16 + 1 * l.val = l.val; omega

theorem bblk_apply (c : Dev nD) (t : Fin cfg0.N) (l : Fin 16) (o : Fin 512) : bblk m c t (ix2 l o) = biasw m c (ix2 l o) := by
  show V m c main_v15 (((cfg0.win 4).blk t).view.emb (ix2 l o)) = V m c main_v15 (ix2 l o)
  refine congrArg (V m c main_v15) (funext fun a => Fin.ext ?_)
  obtain ⟨-, -, -, -, -, -, -, -, -, -, e0, e1, -⟩ := idx_facts t
  match a with
  | ⟨0, _⟩ => show win0_4.index t (0 : Fin 2) * 16 + 1 * l.val = l.val; omega
  | ⟨1, _⟩ => show win0_4.index t (1 : Fin 2) * 512 + 1 * o.val = o.val; omega

theorem rblk_apply (c : Dev nD) (t : Fin cfg0.N) (j : Fin 2048) : rblk m c t (ix2 (0 : Fin 1) j) = blockrow m c (ix2 (0 : Fin 1) j) := by
  show V m c main_v7 (((cfg0.win 5).blk t).view.emb (ix2 (0 : Fin 1) j)) = V m c main_v7 (ix2 (0 : Fin 1) j)
  refine congrArg (V m c main_v7) (funext fun a => Fin.ext ?_)
  obtain ⟨-, -, -, -, -, -, -, -, -, -, -, -, e0, e1, -⟩ := idx_facts t
  match a with
  | ⟨0, _⟩ => show win0_5.index t (0 : Fin 2) * 1 + 1 * 0 = 0; omega
  | ⟨1, _⟩ => show win0_5.index t (1 : Fin 2) * 2048 + 1 * j.val = j.val; omega

/-! ## What a point writes back, the cover, and the array after the run -/

theorem hz3 : (![0, 0, 0] : Fin 3 → Nat) = fun _ => 0 := funext fun a => by fin_cases a <;> rfl
theorem hz2 : (![0, 0] : Fin 2 → Nat) = fun _ => 0 := funext fun a => by fin_cases a <;> rfl

/-- Entry (b', n, o) of point t's output block is entry (4t + b', n, o) of the array. -/
theorem emb_out (t : Fin cfg0.N) (b' : Fin 4) (n : Fin 128) (o : Fin 512) :
    ((cfg0.win 6).blk t).view.emb (ix3 b' n o) = ix3 (item t b') n o := by
  refine funext fun a => Fin.ext ?_
  obtain ⟨-, -, -, -, -, -, -, -, -, -, -, -, -, -, e0, e1, e2⟩ := idx_facts t
  match a with
  | ⟨0, _⟩ => show win0_6.index t (0 : Fin 3) * 4 + 1 * b'.val = t.val * 4 + b'.val; omega
  | ⟨1, _⟩ => show win0_6.index t (1 : Fin 3) * 128 + 1 * n.val = n.val; omega
  | ⟨2, _⟩ => show win0_6.index t (2 : Fin 3) * 512 + 1 * o.val = o.val; omega

/-- The body's result on point t's blocks, at (b', n, o), is the array's entry (4t + b', n, o). -/
theorem pay_at (c : Dev nD) (t : Fin cfg0.N) (b' : Fin 4) (n : Fin 128) (o : Fin 512) :
    k0_pay1 (F := Ideal) (xblk m c t) (wblk m c t) (gblk m c t) (rblk m c t) (kblk m c t) (bblk m c t) (ix3 b' n o)
      = Kat m c (item t b') n o := by
  rw [pay_apply]
  unfold Kat
  refine congrArg₂ (· + ·) (congrArg₂ (· + ·) (xblk_apply m c t b' n o) (Finset.sum_congr rfl fun i _ => ?_))
    (Finset.sum_congr rfl fun l _ => ?_)
  · rw [xblk_apply, wblk_apply, wfold_apply]
  · rw [bblk_apply, biasw_apply]
    refine congrArg (· * barr m c (ix2 l o)) (Finset.sum_congr rfl fun j _ => ?_)
    rw [gblk_apply, rblk_apply, blockrow_apply, kblk_apply, blockind_apply]

/-- WHAT POINT t WRITES BACK is block t of `K`. -/
theorem flushed_eq (c : Dev nD) (t : Fin cfg0.N) :
    (dats m 0 c).flushed 6 t = ((cfg0.win 6).blk t).view.read (Elt Ideal) (K m c) := by
  rw [Value.flushed6]
  unfold out0_6
  rw [View.canon_unit_zero hz3]
  simp only [View.ld_unit_zero (S := S4x128x512) hz3, View.ld_unit_zero (S := S4x128x128) hz3,
    View.ld_unit_zero (S := S512x512) hz2, View.ld_unit_zero (S := S1x2048) hz2,
    View.ld_unit_zero (S := S2048x16) hz2, View.ld_unit_zero (S := S16x512) hz2]
  funext y
  obtain ⟨b', n, o, rfl⟩ : ∃ (b' : Fin 4) (n : Fin 128) (o : Fin 512), y = ix3 b' n o := ⟨y 0, y 1, y 2, eq_ix3 y⟩
  show k0_pay1 (F := Ideal) (xblk m c t) (wblk m c t) (gblk m c t) (rblk m c t) (kblk m c t) (bblk m c t) (ix3 b' n o)
    = K m c (((cfg0.win 6).blk t).view.emb (ix3 b' n o))
  rw [pay_at, emb_out]
  rfl

/-- An index of the array is in point t's block iff each coordinate is in the block's range on its axis. -/
theorem mem_blk (t : Fin cfg0.N) (i : S32x128x512.Idx) :
    i ∈ ((cfg0.win 6).blk t).view.set ↔ ∀ a : Fin 3, win0_6.index t a * S4x128x512.size a ≤ (i a).val ∧ (i a).val < win0_6.index t a * S4x128x512.size a + S4x128x512.size a := by
  show i ∈ ((View.whole main_v16).slice (win0_6.rect t)).set ↔ _
  rw [View.set_slice_whole, Rect.mem_set_unit]
  exact Iff.rfl

/-- The eight blocks cover the array: batch item b lies in point b / 4's block. -/
theorem cover (i : S32x128x512.Idx) : ∃ t : Fin cfg0.N, (cfg0.win 6).flush t = true ∧ i ∈ ((cfg0.win 6).blk t).view.set := by
  have hi0 : (i 0).val < 32 := (i 0).isLt
  have hi1 : (i 1).val < 128 := (i 1).isLt
  have hi2 : (i 2).val < 512 := (i 2).isLt
  let t : Fin cfg0.N := ⟨(i 0).val / 4, lt_of_lt_of_eq (show (i 0).val / 4 < 8 by omega) N_0.symm⟩
  refine ⟨t, flush0_6 t, ?_⟩
  rw [mem_blk]
  obtain ⟨-, -, -, -, -, -, -, -, -, -, -, -, -, -, e0, e1, e2⟩ := idx_facts t
  have ht : t.val = (i 0).val / 4 := rfl
  intro a
  match a with
  | ⟨0, _⟩ => show win0_6.index t (0 : Fin 3) * 4 ≤ (i 0).val ∧ (i 0).val < win0_6.index t (0 : Fin 3) * 4 + 4; omega
  | ⟨1, _⟩ => show win0_6.index t (1 : Fin 3) * 128 ≤ (i 1).val ∧ (i 1).val < win0_6.index t (1 : Fin 3) * 128 + 128; omega
  | ⟨2, _⟩ => show win0_6.index t (2 : Fin 3) * 512 ≤ (i 2).val ∧ (i 2).val < win0_6.index t (2 : Fin 3) * 512 + 512; omega

/-- THE ARRAY after the run is `K`. -/
theorem final (c : Dev nD) : (dats m 0 c).arrAt 6 cfg0.N = K m c :=
  (dats m 0 c).arrAt_eq_of_cover 6 (K m c) (fun t _ => flushed_eq m c t) cover

/-- The kernel's run: the result buffer ends at `K`, the arguments unchanged. -/
theorem run : θ_run defs (onTc (τ := τ) (main (F := Ideal))) ⟨m, fun _ => 0, ρ⟩ fun r => ∀ c : Dev nD,
      r.2.mem ((c : Thread nD τ).loc main_v16) = K m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.KerValue

end
-- ==== Proof.lean ====
/-
  A graph-convolution layer with edge-label biases, as a tiled kernel and as its array-level reference, compute the
  same function over the extended reals on finite inputs whose edge labels are rows of the 16-row bias table:

    out[b, n, o] = feature[b, n, o] + Σ_i feature[b, n, i] · (Σ_d weights[d, o, i]) + Σ_k bias[graph[b, n, k], o].

  Both programs add the two directions' weight matrices before the one contraction, so the linear parts agree term by
  term.  The edge parts differ in arrangement.  The reference gathers one bias row per edge and sums the 128 rows of a
  node.  The kernel lays a node's 128 labels out 16 times side by side, compares copy q against the number q, and
  contracts the resulting one-hot matrix first against the indicator of "position in copy l" — which counts the edges
  labelled l — and then the 16 counts against the bias table.  A count times a table entry is that entry added count
  times exactly when the entry is a real number, which is where finiteness of the bias table is used; and the kernel
  clips a label into the table while the reference reads an out-of-table label as not-a-number (or, for a small
  negative one, from the table's end), which is where the labels' range is used.

  The pieces: `Spec` states the function; `RefTerm` / `RefRun` / `RefRead` run the reference and read its result
  index by index; `KerPay` reads the kernel body's stored value at an entry of its block, `KerHost` the four tables
  the kernel's host program builds, `KerBlocks` assembles the eight blocks into the output array; `Hist` and
  `EdgeSum` are the counting identity; `PreRead` reads the precondition.
-/
import proofs.«424799_j73358041415911_3_alg».proof.Defs
import proofs.«424799_j73358041415911_3_alg».proof.Proof.Gen.Kernel
import proofs.«424799_j73358041415911_3_alg».proof.Proof.Gen.Kernel.Skeleton
import proofs.«424799_j73358041415911_3_alg».proof.Proof.Gen.Kernel.Launch
import proofs.«424799_j73358041415911_3_alg».proof.Proof.Gen.Kernel.Points
import proofs.«424799_j73358041415911_3_alg».proof.Proof.Gen.Kernel.Frame
import proofs.«424799_j73358041415911_3_alg».proof.Proof.Gen.KernelIdeal
import proofs.«424799_j73358041415911_3_alg».proof.Proof.Gen.KernelIdeal.Skeleton
import proofs.«424799_j73358041415911_3_alg».proof.Proof.Gen.KernelIdeal.Launch
import proofs.«424799_j73358041415911_3_alg».proof.Proof.Gen.KernelIdeal.Points
import proofs.«424799_j73358041415911_3_alg».proof.Proof.Gen.KernelIdeal.Frame
import proofs.«424799_j73358041415911_3_alg».proof.Proof.Gen.KernelIdeal.Value
import proofs.«424799_j73358041415911_3_alg».proof.Proof.Gen.ReferenceIdeal
import proofs.«424799_j73358041415911_3_alg».proof.Proof.Gen.Pre_finite_inputs
import proofs.«424799_j73358041415911_3_alg».proof.Proof.Spec
import proofs.«424799_j73358041415911_3_alg».proof.Proof.RefRun
import proofs.«424799_j73358041415911_3_alg».proof.Proof.RefRead
import proofs.«424799_j73358041415911_3_alg».proof.Proof.PreRead
import proofs.«424799_j73358041415911_3_alg».proof.Proof.EdgeSum
import proofs.«424799_j73358041415911_3_alg».proof.Proof.KerBlocks
import Idealize.ShloMosaic.Adequacy
import Idealize.ShloMosaic.Init

noncomputable section

namespace Cert.Proof

open Idealize.ShloMosaic Idealize.ShloMosaic.TcCoe Idealize.ShloMosaic.ValueIdx Idealize.SL.Sem

/-- On real bias entries and in-table labels, the kernel's output array is the specification's function of the
    argument arrays: the linear parts are the same sums, the edge parts are joined by the counting identity. -/
theorem kernel_is_spec (m : (ℓ : Loc Cert.KernelIdeal.nD Cert.KernelIdeal.τ Cert.KernelIdeal.sig) → Buf (Elt Ideal) ℓ)
    (c : Dev Cert.KernelIdeal.nD)
    (hb : Cert.Spec.AllReal (Cert.KernelIdeal.KerHost.barr m c)) (hg : Cert.Spec.InRange (Cert.KernelIdeal.KerValue.garr m c)) :
    Cert.KernelIdeal.KerValue.K m c
      = Cert.Spec.G (Cert.KernelIdeal.KerValue.xarr m c) (Cert.KernelIdeal.KerValue.garr m c)
          (Cert.KernelIdeal.KerHost.warr m c) (Cert.KernelIdeal.KerHost.barr m c) := by
  funext i
  obtain ⟨b, n, o, rfl⟩ : ∃ (b : Fin 32) (n : Fin 128) (o : Fin 512), i = ix3 b n o := ⟨i 0, i 1, i 2, eq_ix3 i⟩
  show Cert.KernelIdeal.KerValue.Kat m c b n o = Cert.Spec.Gat _ _ _ _ b n o
  unfold Cert.KernelIdeal.KerValue.Kat Cert.Spec.Gat
  have h := Cert.EdgeSum.edge_sum (fun k => Cert.KernelIdeal.KerValue.garr m c (ix3 b n k)) (fun k => hg _)
    (fun l => Cert.KernelIdeal.KerHost.barr m c (ix2 l o)) (fun l => hb _)
  rw [h]

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefValue.run (F := Ideal) m ρ)

/-- The idealization rewrote nothing. -/
theorem preserves : Cert.preserves_Kernel_KernelIdeal := trivial

/-- Both runs end with the specification's function of the (agreeing) argument arrays. -/
theorem algebraic : Cert.algebraic_KernelIdeal_ReferenceIdeal := by
  intro m ρ m' ρ' hpre hagree
  refine ⟨fun c => Cert.KernelIdeal.KerValue.K m c, Cert.KernelIdeal.KerValue.run m ρ, ?_⟩
  refine (θ_run Cert.ReferenceIdeal.defs _ _).mono (fun _ h c => ⟨(h c).1.trans ?_, (h c).2⟩)
    (Cert.ReferenceIdeal.RefValue.run (F := Ideal) m' ρ')
  obtain ⟨-, -, hb, hg⟩ := Cert.PreRead.of_pre _ _ _ _ (hpre c)
  rw [(hagree c).1, (hagree c).2.1, (hagree c).2.2.1, (hagree c).2.2.2]
  rw [Cert.ReferenceIdeal.RefValue.refTerm_eq _ _ _ _ hg]
  exact (kernel_is_spec m c hb hg).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
